-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000 32) (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S800000 32 := broadcastInDim S800000 ![] bcast_S_S800000 main_c_16
  let main_v45 : IVec S800000 1 := cmpi .sge main_arg1 main_v44
  let main_c_17 : IVec S_ 32 := constantI S_ 32 100000#32
  let main_v46 : IVec S800000 32 := broadcastInDim S800000 ![] bcast_S_S800000 main_c_17
  let main_v47 : IVec S800000 1 := cmpi .slt main_arg1 main_v46
  let main_v48 : IVec S800000 1 := andi main_v45 main_v47
  let main_c_18 : IVec S_ 1 := constantI S_ 1 1#1
  let main_v49 : IVec S_ 1 := (fun x v => Host.reduce IntOp.andi x v reducesTo_S800000_S_d0 h_S_) main_v48 main_c_18
  let main_v50 : IVec S_ 1 := andi main_v43 main_v49
  main_v50

def fn_part1 {F : FTy → Type} [FloatOps F] (main_arg1 : IVec S800000 32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_v33

def fn {F : FTy → Type} [FloatOps F] (main_arg0 : FVec F S100000x256 .f32) (main_arg1 : IVec S800000 32) (main_arg2 : IVec S800000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩
abbrev S5000x256 : Shape := ⟨2, ![5000, 256]⟩
abbrev S5000x128 : Shape := ⟨2, ![5000, 128]⟩
abbrev S1x128 : Shape := ⟨2, ![1, 128]⟩
abbrev S800000x128 : Shape := ⟨2, ![800000, 128]⟩
abbrev S5000x1 : Shape := ⟨2, ![5000, 1]⟩
abbrev S100000x64 : Shape := ⟨2, ![100000, 64]⟩

abbrev nBuf : Space → Nat
  | .hbm => 117
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000, .f32⟩
  | .hbm, ⟨44, _⟩ => ⟨S_, .f32⟩
  | .hbm, ⟨45, _⟩ => ⟨S800000, .f32⟩
  | .hbm, ⟨46, _⟩ => ⟨S800000, .f32⟩
  | .hbm, ⟨47, _⟩ => ⟨S100000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S1, .i32⟩
  | .hbm, ⟨57, _⟩ => ⟨S_, .i32⟩
  | .hbm, ⟨58, _⟩ => ⟨S800000x1, .i32⟩
  | .hbm, ⟨59, _⟩ => ⟨S800000x1, .i1⟩
  | .hbm, ⟨60, _⟩ => ⟨S1x1, .i32⟩
  | .hbm, ⟨61, _⟩ => ⟨S800000x1, .i32⟩
  | .hbm, ⟨62, _⟩ => ⟨S800000x1, .i1⟩
  | .hbm, ⟨63, _⟩ => ⟨S800000x1, .i1⟩
  | .hbm, ⟨64, _⟩ => ⟨S_, .i1⟩
  | .hbm, ⟨65, _⟩ => ⟨S800000, .i1⟩
  | .hbm, ⟨66, _⟩ => ⟨S800000x128, .f32⟩
  | .hbm, ⟨67, _⟩ => ⟨S800000x128, .i1⟩
  | .hbm, ⟨68, _⟩ => ⟨S_, .f32⟩
  | .hbm, ⟨69, _⟩ => ⟨S800000x128, .f32⟩
  | .hbm, ⟨70, _⟩ => ⟨S800000x128, .f32⟩
  | .hbm, ⟨71, _⟩ => ⟨S800000x1, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S100000x128, .f32⟩
  | .hbm, ⟨76, _⟩ => ⟨S800000x1, .i32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S1, .i32⟩
  | .hbm, ⟨88, _⟩ => ⟨S_, .i32⟩
  | .hbm, ⟨89, _⟩ => ⟨S800000x1, .i32⟩
  | .hbm, ⟨90, _⟩ => ⟨S800000x1, .i1⟩
  | .hbm, ⟨91, _⟩ => ⟨S1x1, .i32⟩
  | .hbm, ⟨92, _⟩ => ⟨S800000x1, .i32⟩
  | .hbm, ⟨93, _⟩ => ⟨S800000x1, .i1⟩
  | .hbm, ⟨94, _⟩ => ⟨S800000x1, .i1⟩
  | .hbm, ⟨95, _⟩ => ⟨S_, .i1⟩
  | .hbm, ⟨96, _⟩ => ⟨S800000, .i1⟩
  | .hbm, ⟨97, _⟩ => ⟨S800000x128, .f32⟩
  | .hbm, ⟨98, _⟩ => ⟨S800000x128, .i1⟩
  | .hbm, ⟨99, _⟩ => ⟨S_, .f32⟩
  | .hbm, ⟨100, _⟩ => ⟨S800000x128, .f32⟩
  | .hbm, ⟨101, _⟩ => ⟨S800000x128, .f32⟩
  | .hbm, ⟨102, _⟩ => ⟨S800000x1, .f32⟩
  | .hbm, ⟨103, _⟩ => ⟨S800000x128, .f32⟩
  | .hbm, ⟨104, _⟩ => ⟨S800000x128, .f32⟩
  | .hbm, ⟨105, _⟩ => ⟨S_, .f32⟩
  | .hbm, ⟨106, _⟩ => ⟨S100000x128, .f32⟩
  | .hbm, ⟨107, _⟩ => ⟨S800000x1, .i32⟩
  | .hbm, ⟨108, _⟩ => ⟨S100000x128, .f32⟩
  | .hbm, ⟨109, _⟩ => ⟨S_, .i32⟩
  | .hbm, ⟨110, _⟩ => ⟨S_, .f32⟩
  | .hbm, ⟨111, _⟩ => ⟨S128x128, .f32⟩
  | .hbm, ⟨112, _⟩ => ⟨S_, .i32⟩
  | .hbm, ⟨113, _⟩ => ⟨S_, .f32⟩
  | .hbm, ⟨114, _⟩ => ⟨S128, .f32⟩
  | .hbm, ⟨115, _⟩ => ⟨S100000x128, .f32⟩
  | .hbm, ⟨116, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v8 : Ref sig .tc := ⟨.hbm, 46, rfl⟩
abbrev main_v9 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_cst_3 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_v21 : Ref sig .tc := ⟨.hbm, 104, rfl⟩
abbrev main_cst_4 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_c : Ref sig .tc := ⟨.hbm, 109, rfl⟩
abbrev main_call4_v0 : Ref sig .tc := ⟨.hbm, 110, rfl⟩
abbrev main_v25 : Ref sig .tc := ⟨.hbm, 111, rfl⟩
abbrev main_c_5 : Ref sig .tc := ⟨.hbm, 112, rfl⟩
abbrev main_call5_v0 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  pads_S128x64_S128x128_000_0640 : S128x64.Pads (![0, 0] : Fin 2 → Nat) ![0, 64] ![0, 0] S128x128
  pads_S64_S128_0640 : S64.Pads (![0] : Fin 1 → Nat) ![64] ![0] S128
  shapeCasts_S128x128_S128x128 : S128x128.ShapeCasts S128x128
  shapeCasts_S128_S128 : S128.ShapeCasts S128
  slices_S100000x128_S100000x64_0_0 : S100000x128.Slices ![0, 0] S100000x64
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x256_S256x128_S5000x128_1_0_0_1_n_n_wf : DotDims.WF S5000x256 S256x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S100000x128 : Shape := ⟨2, ![100000, 128]⟩
abbrev S1x128 : Shape := ⟨2, ![1, 128]⟩
abbrev S100000x1 : Shape := ⟨2, ![100000, 1]⟩
abbrev S800000x128 : Shape := ⟨2, ![800000, 128]⟩
abbrev S100000x64 : Shape := ⟨2, ![100000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S100000x128, .f32⟩
  | .hbm, ⟨42, _⟩ => ⟨S800000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S100000x128, .f32⟩
  | .hbm, ⟨69, _⟩ => ⟨S800000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S800000x1_S800000_n_0_0_1_wf : ScatterDims.WF S100000 S800000x1 S800000 [] [0] [0] 1
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The network both programs compute, index by index over the extended reals.

  A graph of 100000 nodes and 800000 edges. `inputLayer` is the affine map x·W + b on every node row.
  `msg` is what an edge carries: the hidden row of its source node scaled by that node's degree norm,
  h[s e, j] · nrm[s e]. The sum of the messages into each destination node is a function `sc` of the
  message array that is never opened here (the two programs apply the same one). `affineRelu` is the
  post-normalised aggregate through a dense layer and a rectifier, max((agg[r,:]·nrm[r]) · W + b, 0);
  `gcnPost` adds the residual row, `gcnFinal` feeds the rectified rows through the output layer.
  `net` composes them: two rounds of message passing between the input and output layers.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (r c : Nat) := (⟨2, ![r, c]⟩ : Shape).Idx → EReal
/-- A vector of extended reals with a literal extent. -/
abbrev Vec1 (n : Nat) := (⟨1, ![n]⟩ : Shape).Idx → EReal

/-- The one column of an n×1 matrix, as a vector. -/
def col0 {n : Nat} (a : Mat n 1) : Vec1 n := fun i => a (ix2 (i 0) (0 : Fin 1))

/-- x·W + b, row by row. -/
def inputLayer (x : Mat 100000 256) (w : Mat 256 128) (b : Vec1 128) : Mat 100000 128 :=
  fun i => (∑ k : Fin 256, x (ix2 (i 0) k) * w (ix2 k (i 1))) + b (ix1 (i 1))

/-- Edge e's message: its source node's hidden row times that node's norm. -/
def msg (h : Mat 100000 128) (nrm : Vec1 100000) (s : Fin 800000 → Fin 100000) : Mat 800000 128 :=
  fun i => h (ix2 (s (i 0)) (i 1)) * nrm (ix1 (s (i 0)))

/-- max((agg[r,:]·nrm[r])·W + b, 0). -/
def affineRelu (agg : Mat 100000 128) (nrm : Vec1 100000) (w : Mat 128 128) (b : Vec1 128) : Mat 100000 128 :=
  fun i => max ((∑ k : Fin 128, (agg (ix2 (i 0) k) * nrm (ix1 (i 0))) * w (ix2 k (i 1))) + b (ix1 (i 1))) 0

/-- The residual layer: the previous hidden row plus the rectified affine image of the aggregate. -/
def gcnPost (agg : Mat 100000 128) (nrm : Vec1 100000) (w : Mat 128 128) (b : Vec1 128) (hprev : Mat 100000 128) :
    Mat 100000 128 :=
  fun i => hprev i + affineRelu agg nrm w b i

/-- The last layer (no residual) through an output layer of n columns. -/
def gcnFinal {n : Nat} (agg : Mat 100000 128) (nrm : Vec1 100000) (w : Mat 128 128) (b : Vec1 128)
    (wo : Mat 128 n) (bo : Vec1 n) : Mat 100000 n :=
  fun i => (∑ k : Fin 128, affineRelu agg nrm w b (ix2 (i 0) k) * wo (ix2 k (i 1))) + bo (ix1 (i 1))

/-- The whole network: `sc` sums an edge-indexed message array into node rows. -/
def net (nrm : Vec1 100000) (sc : Mat 800000 128 → Mat 100000 128) (s : Fin 800000 → Fin 100000)
    (x : Mat 100000 256) (w : Mat 256 128) (b : Vec1 128) (w0 : Mat 128 128) (b0 : Vec1 128)
    (w1 : Mat 128 128) (b1 : Vec1 128) (wo : Mat 128 64) (bo : Vec1 64) : Mat 100000 64 :=
  gcnFinal (sc (msg (gcnPost (sc (msg (inputLayer x w b) nrm s)) nrm w0 b0 (inputLayer x w b)) nrm s)) nrm w1 b1 wo bo

end Cert.Spec

end
-- ==== Proof.KHostDefs.lean ====
/-
  The kernel program's host side, summarised at the three places a region meets it.

  `nrmK` and `scK` are the two pieces the proof never opens, as functions of the destination ids: the
  degree norm of every node (the count of edges into it, at least one, to the power -1/2) and the sum
  of an edge-indexed message array into node rows. `nrmCol` is the norm as a column (what the regions
  load), `nrmSrc` the norm of each edge's source node (what scales the gathered rows).

  `At4`, `At8`, `At13` say what the buffers that later stages still read hold when region 0 is entered,
  when region 1 has written back, and when region 2 is entered; `s` is the edge list's source ids as a
  function into the node range.
-/
import proofs.«409191_j30193620090945_3_alg».proof.Proof.Gen.KernelIdeal.Frame
import proofs.«409191_j30193620090945_3_alg».proof.Proof.Spec
import Idealize.ShloMosaic.PureOps.Ideal
import Idealize.ShloMosaic.Lib.ValueIdx

noncomputable section

namespace Cert.KernelIdeal.HostValue

section Pieces

open Cert.KernelIdeal Cert.KernelIdeal.Facts₀ Idealize.ShloMosaic Idealize.ShloMosaic.ValueIdx

/-- The degree norm: (max(1, #edges into the node))^(-1/2), as the program computes it. -/
def nrmK (dst : IVec S800000 32) : FVec Ideal S100000 .f32 :=
  Host.powf
    (maximumf (broadcastInDim S100000 ![] bcast_S_S100000 (id (constant S_ .f32 0x3F800000#32)))
      (Host.scatterAdd scatter_S100000_S800000x1_S800000_n_0_0_1
        (broadcastInDim S100000 ![] bcast_S_S100000 (constant S_ .f32 0x00000000#32))
        (broadcastInDim S800000x1 ![0] bcast_S800000_S800000x1_0 dst)
        (broadcastInDim S800000 ![] bcast_S_S800000 (constant S_ .f32 0x3F800000#32))))
    (broadcastInDim S100000 ![] bcast_S_S100000 (constant S_ .f32 0xBF000000#32))

/-- The sum of the edges' messages into their destination nodes' rows, from zero. -/
def scK (dst : IVec S800000 32) (u : FVec Ideal S800000x128 .f32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst) u

/-- The norm as a 100000×1 column. -/
def nrmCol (dst : IVec S800000 32) : FVec Ideal S100000x1 .f32 := fun i => nrmK dst (ix1 (i 0))

/-- The norm of each edge's source node. -/
def nrmSrc (dst : IVec S800000 32) (s : Fin 800000 → Fin 100000) : FVec Ideal S800000 .f32 :=
  fun i => nrmK dst (ix1 (s (i 0)))

end Pieces

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The source ids are node ids: `src e = s e` as signed integers. -/
def SrcIs (c : Dev nD) (s : Fin 800000 → Fin 100000) : Prop :=
  ∀ e : Fin 800000, (m ((c : Thread nD τ).loc main_arg1) (ix1 e)).toInt = ((s e).val : Int)

/-- Region 0's entry: every argument as launched, the norm column, the per-edge source norm. -/
structure At4 (c : Dev nD) (s : Fin 800000 → Fin 100000) : Prop where
  a0 : W4 m ρ c (Proc.devRef .tc main_arg0) = m ((c : Thread nD τ).loc main_arg0)
  a1 : W4 m ρ c (Proc.devRef .tc main_arg1) = m ((c : Thread nD τ).loc main_arg1)
  a2 : W4 m ρ c (Proc.devRef .tc main_arg2) = m ((c : Thread nD τ).loc main_arg2)
  a3 : W4 m ρ c (Proc.devRef .tc main_arg3) = m ((c : Thread nD τ).loc main_arg3)
  a4 : W4 m ρ c (Proc.devRef .tc main_arg4) = m ((c : Thread nD τ).loc main_arg4)
  a5 : W4 m ρ c (Proc.devRef .tc main_arg5) = m ((c : Thread nD τ).loc main_arg5)
  a6 : W4 m ρ c (Proc.devRef .tc main_arg6) = m ((c : Thread nD τ).loc main_arg6)
  a7 : W4 m ρ c (Proc.devRef .tc main_arg7) = m ((c : Thread nD τ).loc main_arg7)
  a8 : W4 m ρ c (Proc.devRef .tc main_arg8) = m ((c : Thread nD τ).loc main_arg8)
  a9 : W4 m ρ c (Proc.devRef .tc main_arg9) = m ((c : Thread nD τ).loc main_arg9)
  a10 : W4 m ρ c (Proc.devRef .tc main_arg10) = m ((c : Thread nD τ).loc main_arg10)
  v7 : W4 m ρ c (Proc.devRef .tc main_v7) = nrmCol (m ((c : Thread nD τ).loc main_arg2))
  v8 : W4 m ρ c (Proc.devRef .tc main_v8) = nrmSrc (m ((c : Thread nD τ).loc main_arg2)) s

/-- Region 1's exit: the arguments still to be read, the two norm buffers, and the hidden rows `h1`. -/
structure At8 (c : Dev nD) (s : Fin 800000 → Fin 100000) (h1 : Cert.Spec.Mat 100000 128) : Prop where
  a1 : W8 m ρ c (Proc.devRef .tc main_arg1) = m ((c : Thread nD τ).loc main_arg1)
  a2 : W8 m ρ c (Proc.devRef .tc main_arg2) = m ((c : Thread nD τ).loc main_arg2)
  a7 : W8 m ρ c (Proc.devRef .tc main_arg7) = m ((c : Thread nD τ).loc main_arg7)
  a8 : W8 m ρ c (Proc.devRef .tc main_arg8) = m ((c : Thread nD τ).loc main_arg8)
  a9 : W8 m ρ c (Proc.devRef .tc main_arg9) = m ((c : Thread nD τ).loc main_arg9)
  a10 : W8 m ρ c (Proc.devRef .tc main_arg10) = m ((c : Thread nD τ).loc main_arg10)
  v7 : W8 m ρ c (Proc.devRef .tc main_v7) = nrmCol (m ((c : Thread nD τ).loc main_arg2))
  v8 : W8 m ρ c (Proc.devRef .tc main_v8) = nrmSrc (m ((c : Thread nD τ).loc main_arg2)) s
  v17 : W8 m ρ c (Proc.devRef .tc main_v17) = h1

/-- Region 2's entry: the aggregate `agg`, the norm column, the layer's weights, and the output layer's
    weights and bias padded from 64 to 128 columns (the first 64 columns are the arguments'). -/
structure At13 (c : Dev nD) (agg : Cert.Spec.Mat 100000 128) : Prop where
  v24 : W13 m ρ c (Proc.devRef .tc main_v24) = agg
  v7 : W13 m ρ c (Proc.devRef .tc main_v7) = nrmCol (m ((c : Thread nD τ).loc main_arg2))
  a7 : W13 m ρ c (Proc.devRef .tc main_arg7) = m ((c : Thread nD τ).loc main_arg7)
  a8 : W13 m ρ c (Proc.devRef .tc main_arg8) = m ((c : Thread nD τ).loc main_arg8)
  v25 : ∀ (k : Fin 128) (j : Fin 64), W13 m ρ c (Proc.devRef .tc main_v25) (ix2 k (⟨j.val, by omega⟩ : Fin 128))
      = m ((c : Thread nD τ).loc main_arg9) (ix2 k j)
  v26 : ∀ j : Fin 64, W13 m ρ c (Proc.devRef .tc main_v26) (ix1 (⟨j.val, by omega⟩ : Fin 128))
      = m ((c : Thread nD τ).loc main_arg10) (ix1 j)

end Cert.KernelIdeal.HostValue

end
-- ==== Proof.LibGather.lean ====
/-
  A general lemma file: `stablehlo.gather` taking whole rows (or single entries) along axis 0 — what
  `x[idx]` and `jnp.take(x, idx, axis=0)` lower to — read at an index. The start index is read as a
  signed integer and clamped into the operand's row range; every other coordinate passes through.

  * `rowsDims N E C`: operand [N, C], start indices [E, 1], result [E, C] (offset axis 1, collapsed axis 0).
  * `vecDims N E`:   operand [N],    start indices [E, 1], result [E]    (no offset axis, collapsed axis 0).
  A program's own record of the same dimension numbers is one of these by `rfl`.
-/
import Idealize.ShloMosaic.PureOps.ShapeOps
import Idealize.ShloMosaic.Lib.ValueIdx

noncomputable section

namespace Cert.LibGather

open Idealize.ShloMosaic Idealize.ShloMosaic.ValueIdx

/-- Dimension numbers of a gather of whole rows of an [N, C] operand by [E, 1] start indices. -/
def rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of an [N] operand by [E, 1] start indices. -/
def vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row `e` of the result is the operand's row at the start index `idx[e, 0]`, read signed and clamped
    into `[0, N - 1]`; the column passes through. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowsDims N E C wf) x idx y
      = x (ix2 (⟨min (idx (ix2 (y 0) (0 : Fin 1))).toInt.toNat (N - 1), by omega⟩ : Fin N) (y 1)) := by
  unfold Host.gather
  congr 1
  funext a
  refine Fin.ext ?_
  match a with
  | ⟨0, _⟩ =>
    show (rowsDims N E C wf).start y idx 0 + (rowsDims N E C wf).batchCoord y 0 + (rowsDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx y ⟨List.idxOf (0 : Fin 2) (rowsDims N E C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N E C wf).start y idx 1 + (rowsDims N E C wf).batchCoord y 1 + (rowsDims N E C wf).offCoord y 1 = _
    rw [GatherDims.batchCoord_eq_zero _ _ _ List.not_mem_nil]
    unfold GatherDims.start
    rw [dif_neg (show (1 : Fin 2) ∉ (rowsDims N E C wf).startIndexMap from
      fun h => absurd (List.mem_singleton.mp h) (show ¬ ((1 : Fin 2) = 0) from by decide))]
    simp only [Nat.add_zero, Nat.zero_add]
    rfl

/-- Entry `e` of the result is the operand's entry at the start index `idx[e, 0]`, read signed and
    clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecDims N E wf) x idx y
      = x (ix1 (⟨min (idx (ix2 (y 0) (0 : Fin 1))).toInt.toNat (N - 1), by omega⟩ : Fin N)) := by
  unfold Host.gather
  congr 1
  funext a
  obtain rfl : a = 0 := Subsingleton.elim _ _
  refine Fin.ext ?_
  show (vecDims N E wf).start y idx 0 + (vecDims N E wf).batchCoord y 0 + (vecDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx y ⟨List.idxOf (0 : Fin 1) (vecDims N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Cert.LibGather

end
-- ==== Proof.KTake.lean ====
/-
  Taking entries or whole rows of an array at the edge list's source ids, as the kernel program's host
  side spells it: a negative id is wrapped by adding 100000, the wrapped id is tested against [0, 99999],
  the rows are gathered with the id clamped, and a row whose id failed the test is replaced by a fill.
  With every source id a node id, nothing is wrapped, the test is all ones, the clamp is idle and the
  fill never shows: the take is the array read at `s e`. Scaling the taken rows by the per-edge source
  norm then gives the message array h[s e, j] · nrm[s e].
-/
import proofs.«409191_j30193620090945_3_alg».proof.Proof.Gen.KernelIdeal
import proofs.«409191_j30193620090945_3_alg».proof.Proof.Spec
import proofs.«409191_j30193620090945_3_alg».proof.Proof.LibGather
import Idealize.ShloMosaic.PureOps.Ideal
import Idealize.ShloMosaic.Lib.ValueIdx
import Idealize.ShloMosaic.Lib.StableHlo.Predicate
import Idealize.ShloMosaic.Lib.ReduceAll
import Idealize.ShloMosaic.Lib.Pipeline.Value

noncomputable section

namespace Cert.KernelIdeal.HostValue

open Cert.KernelIdeal Cert.KernelIdeal.Facts₀ Idealize.ShloMosaic Idealize.ShloMosaic.ValueIdx

/-- The source ids with negatives wrapped, as a column of start indices. -/
def idxCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- Per edge: the wrapped id lies in [0, 99999]. -/
def inRange (src : IVec S800000 32) : IVec S800000 1 :=
  Host.reduce IntOp.andi
    (andi (cmpi .sge (idxCol src) (broadcastInDim S800000x1 ![] bcast_S_S800000x1 (constantI S_ 32 0#32)))
      (cmpi .sle (idxCol src)
        (broadcastInDim S800000x1 ![0, 1] bcast_S1x1_S800000x1_0_1
          (broadcastInDim S1x1 ![1] bcast_S1_S1x1_1 (constantI S1 32 99999#32)))))
    (constantI S_ 1 1#1) reducesTo_S800000x1_S800000_d1 h_S_

/-- The take of a vector at the source ids. -/
def takeVec (x : FVec Ideal S100000 .f32) (src : IVec S800000 32) : FVec Ideal S800000 .f32 :=
  select (inRange src) (Host.gather gather_S100000_S800000x1_S800000_n_0_n_n_0_1_1 x (idxCol src))
    (broadcastInDim S800000 ![] bcast_S_S800000 (constant S_ .f32 0x7FC00000#32))

/-- The take of whole rows at the source ids. -/
def takeRows (x : FVec Ideal S100000x128 .f32) (src : IVec S800000 32) : FVec Ideal S800000x128 .f32 :=
  select (broadcastInDim S800000x128 ![0] bcast_S800000_S800000x128_0 (inRange src))
    (Host.gather gather_S100000x128_S800000x1_S800000x128_1_0_n_n_0_1_1128 x (idxCol src))
    (broadcastInDim S800000x128 ![] bcast_S_S800000x128 (constant S_ .f32 0x7FC00000#32))

/-- Edge rows scaled by a per-edge factor. -/
def scaleRows (g : FVec Ideal S800000x128 .f32) (n : FVec Ideal S800000 .f32) : FVec Ideal S800000x128 .f32 :=
  mulf g (broadcastInDim S800000x128 ![0, 1] bcast_S800000x1_S800000x128_0_1
    (broadcastInDim S800000x1 ![0] bcast_S800000_S800000x1_0 n))

/-- A 32-bit word whose signed value is a natural number is not below zero. -/
theorem cmpi_slt_zero_of_nat (w : BitVec 32) (n : Nat) (h : w.toInt = (n : Int)) :
    IntOp.cmpi .slt w 0#32 = 0#1 := by
  have h0 : (0#32 : BitVec 32).toInt = 0 := by decide
  have hb : w.slt 0#32 = false := by
    simp only [BitVec.slt, h, h0]
    exact decide_eq_false (by omega)
  show BitVec.ofBool (w.slt 0#32) = 0#1
  rw [hb]; rfl

/-- A 32-bit word whose signed value is a natural number is at least zero. -/
theorem cmpi_sge_zero_of_nat (w : BitVec 32) (n : Nat) (h : w.toInt = (n : Int)) :
    IntOp.cmpi .sge w 0#32 = 1#1 := by
  have h0 : (0#32 : BitVec 32).toInt = 0 := by decide
  have hb : (0#32 : BitVec 32).sle w = true := by
    simp only [BitVec.sle, h, h0]
    exact decide_eq_true (by omega)
  show BitVec.ofBool ((0#32 : BitVec 32).sle w) = 1#1
  rw [hb]; rfl

/-- A 32-bit word whose signed value is a natural number below 100000 is at most 99999. -/
theorem cmpi_sle_last_of_nat (w : BitVec 32) (n : Nat) (h : w.toInt = (n : Int)) (hn : n < 100000) :
    IntOp.cmpi .sle w 99999#32 = 1#1 := by
  have h0 : (99999#32 : BitVec 32).toInt = 99999 := by decide
  have hb : w.sle 99999#32 = true := by
    simp only [BitVec.sle, h, h0]
    exact decide_eq_true (by omega)
  show BitVec.ofBool (w.sle 99999#32) = 1#1
  rw [hb]; rfl

/-- A left fold by `and` from 1 over words that are all 1 is 1. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_all_one f l (fun n hn => h n (List.mem_cons_of_mem _ hn))

section
variable (src : IVec S800000 32) (s : Fin 800000 → Fin 100000)
  (hs : ∀ e : Fin 800000, (src (ix1 e)).toInt = ((s e).val : Int))
include hs

/-- Nothing is wrapped: the start-index column at row `e` is the source id of edge `e`. -/
theorem idxCol_apply (j : S800000x1.Idx) : idxCol src j = src (ix1 (j 0)) := by
  unfold idxCol
  refine (broadcastInDim_apply _ _ _ j (ix1 (j 0)) (fun a => match a with | ⟨0, _⟩ => rfl)).trans ?_
  show Scalar.select (IntOp.cmpi .slt (src (ix1 (j 0))) 0#32) _ (src (ix1 (j 0))) = _
  rw [cmpi_slt_zero_of_nat _ _ (hs (j 0)), select_zero]

/-- The range test is 1 at every edge. -/
theorem inRange_apply (i : S800000.Idx) : inRange src i = 1#1 := by
  unfold inRange
  rw [Host.reduce_eq_foldl]
  refine foldl_andi_all_one _ _ (fun j _ => ?_)
  show IntOp.andi (IntOp.cmpi .sge (idxCol src j) 0#32) (IntOp.cmpi .sle (idxCol src j) 99999#32) = 1#1
  rw [idxCol_apply src s hs j, cmpi_sge_zero_of_nat _ _ (hs (j 0)),
    cmpi_sle_last_of_nat _ _ (hs (j 0)) (s (j 0)).isLt]
  rfl

/-- The clamped start index of edge `e` is `s e`. -/
theorem start_eq (e : Fin 800000) :
    min (idxCol src (ix2 e (0 : Fin 1))).toInt.toNat (100000 - 1) = (s e).val := by
  rw [idxCol_apply src s hs]
  show min (src (ix1 e)).toInt.toNat (100000 - 1) = (s e).val
  rw [hs e, Int.toNat_natCast]
  have := (s e).isLt
  omega

end

/-- With the source ids node ids, the take of a vector is the vector at `s e`. -/
theorem takeVec_eq (x : FVec Ideal S100000 .f32) (src : IVec S800000 32) (s : Fin 800000 → Fin 100000)
    (hs : ∀ e : Fin 800000, (src (ix1 e)).toInt = ((s e).val : Int)) :
    takeVec x src = fun i => x (ix1 (s (i 0))) := by
  funext i
  unfold takeVec
  rw [select_apply]
  rw [inRange_apply src s hs i]
  rw [select_one]
  refine (Cert.LibGather.gather_vec_apply (N := 100000) (E := 800000) (by omega) _ x (idxCol src) i).trans ?_
  exact congrArg x (congrArg ix1 (Fin.ext (start_eq src s hs (i 0))))

/-- With the source ids node ids, the taken rows scaled by the source norm are the message array. -/
theorem takeRows_scaled_eq (x : FVec Ideal S100000x128 .f32) (nrm : FVec Ideal S100000 .f32) (src : IVec S800000 32)
    (s : Fin 800000 → Fin 100000) (hs : ∀ e : Fin 800000, (src (ix1 e)).toInt = ((s e).val : Int)) :
    scaleRows (takeRows x src) (fun i => nrm (ix1 (s (i 0)))) = Cert.Spec.msg x nrm s := by
  funext i
  have hm : broadcastInDim S800000x128 ![0] bcast_S800000_S800000x128_0 (inRange src) i = 1#1 :=
    (broadcastInDim_apply _ _ _ i (ix1 (i 0)) (fun a => match a with | ⟨0, _⟩ => rfl)).trans
      (inRange_apply src s hs _)
  have hn : broadcastInDim S800000x128 ![0, 1] bcast_S800000x1_S800000x128_0_1
      (broadcastInDim S800000x1 ![0] bcast_S800000_S800000x1_0 (fun i : S800000.Idx => nrm (ix1 (s (i 0))))) i
      = nrm (ix1 (s (i 0))) :=
    (broadcastInDim_apply _ _ _ i (ix2 (i 0) (0 : Fin 1))
      (fun a => match a with | ⟨0, _⟩ => rfl | ⟨1, _⟩ => rfl)).trans
      (broadcastInDim_apply _ _ _ (ix2 (i 0) (0 : Fin 1)) (ix1 (i 0)) (fun a => match a with | ⟨0, _⟩ => rfl))
  unfold scaleRows takeRows Cert.Spec.msg
  rw [mulf_apply]
  rw [hn]
  rw [select_apply]
  rw [hm]
  rw [select_one]
  refine (congrArg (· * nrm (ix1 (s (i 0))))
    (Cert.LibGather.gather_rows_apply (N := 100000) (E := 800000) (C := 128) (by omega) _ x (idxCol src) i)).trans ?_
  exact congrArg (fun r => x (ix2 r (i 1)) * nrm (ix1 (s (i 0)))) (Fin.ext (start_eq src s hs (i 0)))

end Cert.KernelIdeal.HostValue

end
-- ==== Proof.KHostA.lean ====
/-
  From the launch to region 0's entry: no host operation writes an argument, the norm column is the
  norm broadcast along a unit axis, and the take of the norm at the source ids — every id in range, so the
  range mask is all ones and the fill never shows — is the norm of each edge's source node.
-/
import proofs.«409191_j30193620090945_3_alg».proof.Proof.KHostDefs
import proofs.«409191_j30193620090945_3_alg».proof.Proof.LibGather
import proofs.«409191_j30193620090945_3_alg».proof.Proof.KTake
import Idealize.ShloMosaic.Lib.StableHlo.Run
import Idealize.ShloMosaic.Lib.StableHlo.Predicate
import Idealize.ShloMosaic.Lib.ReduceAll
import Idealize.ShloMosaic.Lib.Pipeline.Value

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- No operation of a literal stretch writes the literal buffer. -/
local macro "no_write" : tactic =>
  `(tactic| (refine List.forall_iff_forall_mem.mp ?_
             simp only [hostOps0, hostOps0_1, hostOps0_2, hostOps0_3, List.flatten_cons, List.flatten_nil,
               List.append_nil, List.cons_append, List.nil_append, List.Forall, StableHlo.nullary_writes,
               StableHlo.unary_writes, StableHlo.binary_writes, StableHlo.ternary_writes,
               StableHlo.quaternary_writes, StableHlo.reshape_writes, StableHlo.binaryIndexed_writes,
               Finset.mem_singleton]
             repeat' apply And.intro
             all_goals exact StableHlo.devRef_ne_of_ne (by decide)))

/-! The auxiliary facts, in a namespace of their own. -/
namespace A4

section Stretches

/-- Contents moved to a typed reference's buffer type and back are unchanged. -/
theorem ofBuf_toBuf {T : BufTy} {Val : EltTy → Type} (x : StableHlo.TRef sig T) (v : T.Contents Val) :
    x.ofBuf (x.toBuf v) = v := by
  obtain ⟨r, rfl, a, b⟩ := x
  rfl

variable (V : Valuation τ sig (Elt Ideal))

/-- Through the first three stretches: the count of edges into each node from zero, its maximum with
    one, and that to the power -1/2 — the degree norm of the destination ids held at the start. -/
theorem run_v6 :
    StableHlo.after (hostOps0_2 (F := Ideal)) (StableHlo.after (hostOps0_1 (F := Ideal))
        (StableHlo.after (hostOps0 (F := Ideal)) V)) (Proc.devRef .tc main_v6)
      = nrmK (V (Proc.devRef .tc main_arg2)) := by
  have h4 : ∀ X : (⟨S100000, .f32⟩ : BufTy).Contents (Elt Ideal),
      (.of main_v4 : StableHlo.TRef sig ⟨S100000, .f32⟩).toBuf X = X := fun _ => rfl
  have h3 : ∀ X : (Proc.devRef (τ := τ) .tc main_v3).ty.Contents (Elt Ideal),
      (.of main_v3 : StableHlo.TRef sig ⟨S100000, .f32⟩).ofBuf X = X := fun _ => rfl
  have hc : ∀ X : (Proc.devRef (τ := τ) .tc main_cst_1).ty.Contents (Elt Ideal),
      (.of main_cst_1 : StableHlo.TRef sig ⟨S_, .f32⟩).ofBuf X = X := fun _ => rfl
  after_results
  simp only [ofBuf_toBuf, h4, h3, hc]
  rfl

/-- The third stretch ends by writing the norm as a column. -/
theorem run_v7 :
    StableHlo.after (hostOps0_2 (F := Ideal)) V (Proc.devRef .tc main_v7)
      = (broadcastInDim S100000x1 ![0] bcast_S100000_S100000x1_0
          (StableHlo.after (hostOps0_2 (F := Ideal)) V (Proc.devRef .tc main_v6)) : FVec Ideal S100000x1 .f32) := by
  after_results

set_option maxHeartbeats 1000000 in
/-- The fourth stretch is the take of the norm at the source ids. -/
theorem run_v8 :
    StableHlo.after (hostOps0_3 (F := Ideal)) V (Proc.devRef .tc main_v8)
      = takeVec (V (Proc.devRef .tc main_v6)) (V (Proc.devRef .tc main_arg1)) := by
  have h8 : ∀ X : (⟨S800000, .f32⟩ : BufTy).Contents (Elt Ideal),
      (.of main_v8 : StableHlo.TRef sig ⟨S800000, .f32⟩).toBuf X = X := fun _ => rfl
  have h6 : ∀ X : (Proc.devRef (τ := τ) .tc main_v6).ty.Contents (Elt Ideal),
      (.of main_v6 : StableHlo.TRef sig ⟨S100000, .f32⟩).ofBuf X = X := fun _ => rfl
  have h1 : ∀ X : (Proc.devRef (τ := τ) .tc main_arg1).ty.Contents (Elt Ideal),
      (.of main_arg1 : StableHlo.TRef sig ⟨S800000, .i32⟩).ofBuf X = X := fun _ => rfl
  after_results_simp
  simp only [ofBuf_toBuf, h8, h6, h1]
  rfl

end Stretches

/-- A buffer none of the four stretches writes holds at region 0's entry what it held at the start. -/
theorem kept (c : Dev nD) (r : Ref sig .tc)
    (h3 : ∀ op ∈ (hostOps0_3 : List (HloOp τ sig (Elt Ideal))), Proc.devRef .tc r ∉ op.writes)
    (h2 : ∀ op ∈ (hostOps0_2 : List (HloOp τ sig (Elt Ideal))), Proc.devRef .tc r ∉ op.writes)
    (h1 : ∀ op ∈ (hostOps0_1 : List (HloOp τ sig (Elt Ideal))), Proc.devRef .tc r ∉ op.writes)
    (h0 : ∀ op ∈ (hostOps0 : List (HloOp τ sig (Elt Ideal))), Proc.devRef .tc r ∉ op.writes) :
    W4 m ρ c (Proc.devRef .tc r) = W0 m ρ c (Proc.devRef .tc r) :=
  calc W4 m ρ c (Proc.devRef .tc r)
    _ = W3 m ρ c (Proc.devRef .tc r) := StableHlo.after_of_forall_not_mem _ _ h3
    _ = W2 m ρ c (Proc.devRef .tc r) := StableHlo.after_of_forall_not_mem _ _ h2
    _ = W1 m ρ c (Proc.devRef .tc r) := StableHlo.after_of_forall_not_mem _ _ h1
    _ = W0 m ρ c (Proc.devRef .tc r) := StableHlo.after_of_forall_not_mem _ _ h0

/-- The norm, when the take is entered. -/
theorem v6_at3 (c : Dev nD) :
    W3 m ρ c (Proc.devRef .tc main_v6) = nrmK (m ((c : Thread nD τ).loc main_arg2)) :=
  (run_v6 (W0 m ρ c)).trans rfl

/-- The source ids, when the take is entered. -/
theorem arg1_at3 (c : Dev nD) :
    W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem _ _ (by no_write)
    _ = W1 m ρ c (Proc.devRef .tc main_arg1) := StableHlo.after_of_forall_not_mem _ _ (by no_write)
    _ = W0 m ρ c (Proc.devRef .tc main_arg1) := StableHlo.after_of_forall_not_mem _ _ (by no_write)
    _ = m ((c : Thread nD τ).loc main_arg1) := rfl

/-- The norm column read at a row. -/
theorem col_apply (x : FVec Ideal S100000 .f32) :
    (broadcastInDim S100000x1 ![0] bcast_S100000_S100000x1_0 x : FVec Ideal S100000x1 .f32)
      = fun i => x (ix1 (i 0)) := by
  funext i
  exact broadcastInDim_apply _ _ x i (ix1 (i 0)) (fun a => match a with | ⟨0, _⟩ => rfl)

end A4

open A4 in
/-- What region 0 finds. -/
theorem at4 (c : Dev nD) (s : Fin 800000 → Fin 100000) (hs : SrcIs m c s) : At4 m ρ c s where
  a0 := (kept m ρ c main_arg0 (by no_write) (by no_write) (by no_write) (by no_write)).trans rfl
  a1 := (kept m ρ c main_arg1 (by no_write) (by no_write) (by no_write) (by no_write)).trans rfl
  a2 := (kept m ρ c main_arg2 (by no_write) (by no_write) (by no_write) (by no_write)).trans rfl
  a3 := (kept m ρ c main_arg3 (by no_write) (by no_write) (by no_write) (by no_write)).trans rfl
  a4 := (kept m ρ c main_arg4 (by no_write) (by no_write) (by no_write) (by no_write)).trans rfl
  a5 := (kept m ρ c main_arg5 (by no_write) (by no_write) (by no_write) (by no_write)).trans rfl
  a6 := (kept m ρ c main_arg6 (by no_write) (by no_write) (by no_write) (by no_write)).trans rfl
  a7 := (kept m ρ c main_arg7 (by no_write) (by no_write) (by no_write) (by no_write)).trans rfl
  a8 := (kept m ρ c main_arg8 (by no_write) (by no_write) (by no_write) (by no_write)).trans rfl
  a9 := (kept m ρ c main_arg9 (by no_write) (by no_write) (by no_write) (by no_write)).trans rfl
  a10 := (kept m ρ c main_arg10 (by no_write) (by no_write) (by no_write) (by no_write)).trans rfl
  v7 := by
    have e : W4 m ρ c (Proc.devRef .tc main_v7) = W3 m ρ c (Proc.devRef .tc main_v7) :=
      StableHlo.after_of_forall_not_mem _ _ (by no_write)
    have e7 : W3 m ρ c (Proc.devRef .tc main_v7)
        = (broadcastInDim S100000x1 ![0] bcast_S100000_S100000x1_0
            (W3 m ρ c (Proc.devRef .tc main_v6)) : FVec Ideal S100000x1 .f32) := run_v7 (W2 m ρ c)
    rw [e, e7, v6_at3 m ρ c, col_apply]
    rfl
  v8 := by
    have e : W4 m ρ c (Proc.devRef .tc main_v8)
        = takeVec (W3 m ρ c (Proc.devRef .tc main_v6)) (W3 m ρ c (Proc.devRef .tc main_arg1)) := run_v8 (W3 m ρ c)
    rw [e, v6_at3 m ρ c, arg1_at3 m ρ c]
    exact takeVec_eq _ _ s hs

end Cert.KernelIdeal.HostValue

end
-- ==== Proof.Region0.lean ====
/-
  The input layer's region, as one function of the arrays it finds: twenty blocks of 5000 node rows, each
  block's rows the products x[r,:]·W plus the bias, together fill the 100000×128 output with x·W + b.
-/
import proofs.«409191_j30193620090945_3_alg».proof.Proof.Gen.KernelIdeal.Frame
import proofs.«409191_j30193620090945_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0Value

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The block's matrix product, read at an entry -/

/-- The left operand's row coordinate is the output's row. -/
theorem lhs_rowblock_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the summation index. -/
theorem lhs_rowblock_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row coordinate is the summation index. -/
theorem rhs_rowblock_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column coordinate is the output's column. -/
theorem rhs_rowblock_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A 5000×256 block times the 256×128 weights into a zero accumulator: entry (p, q) is the sum over the 256
    shared coordinates of the products. -/
theorem rowblock_matmul_apply (x0 : FVec Ideal S5000x256 .f32) (x1 : FVec Ideal S256x128 .f32) (p : Fin 5000) (q : Fin 128) :
    matmul dot_S5000x256_S256x128_S5000x128_1_0_0_1_n_n (some .fp32) x0 x1 (constant (F := Ideal) S5000x128 .f32 0x00000000#32) (ix2 p q)
      = ∑ k : Fin 256, x0 (ix2 p k) * x1 (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_rowblock_0 _ _
    | ⟨1, _⟩ => exact (lhs_rowblock_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_rowblock_0 _ _).trans hk
    | ⟨1, _⟩ => exact rhs_rowblock_1 _ _)
  rw [el, er]

/-! ## The body's payload, read at an entry -/

/-- Entry (p, q) of what the body stores: row p of the x block against column q of the weights, plus the bias's
    entry q (the bias is laid out as one row and repeated down the 5000 rows). -/
theorem payload_apply (x0 : FVec Ideal S5000x256 .f32) (x1 : FVec Ideal S256x128 .f32) (x2 : FVec Ideal S128 .f32) (p : Fin 5000) (q : Fin 128) :
    k0_pay1 (F := Ideal) x0 x1 x2 (ix2 p q) = (∑ k : Fin 256, x0 (ix2 p k) * x1 (ix2 k q)) + x2 (ix1 q) := by
  unfold k0_pay1
  refine (addf_apply _ _ (ix2 p q)).trans ?_
  refine congrArg₂ (· + ·) (rowblock_matmul_apply x0 x1 p q) ?_
  refine (broadcastTo_1b_ab_apply _ _ p q).trans ?_
  exact shapeCast_a_1a_apply x2 _ (0 : Fin 1) q

/-! ## From the twenty blocks to the array -/

/-- The body reads and writes each staging buffer from its origin. -/
theorem zero_offsets2 : (![0, 0] : Fin 2 → Nat) = fun _ => 0 := funext fun a => by fin_cases a <;> rfl
theorem zero_offsets1 : (![0] : Fin 1 → Nat) = fun _ => 0 := funext fun a => by fin_cases a <;> rfl

/-- x·W + b at row r, column q. -/
theorem inputLayer_apply (x : Cert.Spec.Mat 100000 256) (w : Cert.Spec.Mat 256 128) (b : Cert.Spec.Vec1 128) (r : Fin 100000) (q : Fin 128) :
    Cert.Spec.inputLayer x w b (ix2 r q) = (∑ k : Fin 256, x (ix2 r k) * w (ix2 k q)) + b (ix1 q) := rfl

/-- The windows' index maps over the twenty points: point t's x block and output block are row block t, all columns;
    the weights and the bias are read whole at every point. -/
theorem block_indices : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0
    ∧ t.val < 20 :=
  (by decide +kernel : ∀ t : Fin grid0.N, _)

/-- Row p of point t's x block is row 5000·t + p of x. -/
theorem x_block_apply (c : Dev nD) (t : Fin cfg0.N) (p : Fin 5000) (k : Fin 256) (r : Fin 100000)
    (hr : r.val = t.val * 5000 + p.val) :
    iblk0 V c 0 t (ix2 p k) = V c main_arg0 (ix2 r k) := by
  obtain ⟨e0, e1, -, -, -, e5, -, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- Every point's weight block is the weight matrix. -/
theorem w_block_apply (c : Dev nD) (t : Fin cfg0.N) (k : Fin 256) (q : Fin 128) :
    iblk0 V c 1 t (ix2 k q) = V c main_arg3 (ix2 k q) := by
  obtain ⟨-, -, e2, e3, -, -, -, -⟩ := block_indices t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- Every point's bias block is the bias vector. -/
theorem b_block_apply (c : Dev nD) (t : Fin cfg0.N) (q : Fin 128) :
    iblk0 V c 2 t (ix1 q) = V c main_arg4 (ix1 q) := by
  obtain ⟨-, -, -, -, e4, -, -, -⟩ := block_indices t
  show V c main_arg4 (((cfg0.win 2).blk t).view.emb (ix1 q)) = V c main_arg4 (ix1 q)
  refine congrArg (V c main_arg4) (funext fun a => Fin.ext ?_)
  match a with
  | ⟨0, _⟩ => show win0_2.index t (0 : Fin 1) * 128 + 1 * q.val = q.val; omega

/-- Entry (p, q) of point t's output block sits at row 5000·t + p, column q of the output array. -/
theorem out_block_emb (t : Fin cfg0.N) (p : Fin 5000) (q : Fin 128) (r : Fin 100000) (hr : r.val = t.val * 5000 + p.val) :
    ((cfg0.win 3).blk t).view.emb (ix2 p q) = (ix2 r q : S100000x128.Idx) := by
  obtain ⟨-, -, -, -, -, e5, e6, -⟩ := block_indices t
  funext a; apply Fin.ext
  match a with
  | ⟨0, _⟩ => show win0_3.index t (0 : Fin 2) * 5000 + 1 * p.val = r.val; omega
  | ⟨1, _⟩ => show win0_3.index t (1 : Fin 2) * 128 + 1 * q.val = q.val; omega

/-- What point t writes back is row block t of x·W + b of the arrays the region finds. -/
theorem flushed_eq (c : Dev nD) (t : Fin cfg0.N) :
    (dat0 (F := Ideal) V c).flushed 3 t
      = ((cfg0.win 3).blk t).view.read (Elt Ideal) (Cert.Spec.inputLayer (V c main_arg0) (V c main_arg3) (V c main_arg4)) := by
  show (cfg0.win 3).cut (grid0.coords t) ((dat0 V c).after 3 t) = _
  rw [after0_3]
  unfold out0_3
  rw [View.canon_unit_zero zero_offsets2]
  simp only [View.ld_unit_zero (S := S5000x256) zero_offsets2, View.ld_unit_zero (S := S256x128) zero_offsets2, View.ld_unit_zero (S := S128) zero_offsets1]
  funext j
  obtain ⟨p, q, rfl⟩ : ∃ (p : Fin 5000) (q : Fin 128), j = ix2 p q := ⟨j 0, j 1, eq_ix2 j⟩
  have ht : t.val < 20 := (block_indices t).2.2.2.2.2.2.2
  refine (payload_apply (iblk0 V c 0 t) (iblk0 V c 1 t) (iblk0 V c 2 t) p q).trans ?_
  refine Eq.trans ?_ (congrArg (Cert.Spec.inputLayer (V c main_arg0) (V c main_arg3) (V c main_arg4))
    (out_block_emb t p q ⟨t.val * 5000 + p.val, by omega⟩ rfl)).symm
  refine Eq.trans ?_ (inputLayer_apply _ _ _ ⟨t.val * 5000 + p.val, by omega⟩ q).symm
  exact congrArg₂ (· + ·)
    (Finset.sum_congr rfl fun k _ => congrArg₂ (· * ·) (x_block_apply V c t p k ⟨t.val * 5000 + p.val, by omega⟩ rfl) (w_block_apply V c t k q))
    (b_block_apply V c t q)

/-- An index of the output array is in point t's block iff each coordinate is in the block's range on its axis. -/
theorem mem_out_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v9).slice (win0_3.rect t)).set ↔ _
  rw [View.set_slice_whole, Rect.mem_set_unit]
  exact Iff.rfl

/-- Row r lies in the block of point r / 5000, and there are twenty points for the 100000 rows. -/
theorem rows_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by rw [show cfg0.N = 20 from N_0]; omega
  obtain ⟨t, ht⟩ : ∃ t : Fin cfg0.N, t.val = (i 0).val / 5000 := ⟨⟨_, hN⟩, rfl⟩
  obtain ⟨-, -, -, -, -, e5, e6, -⟩ := block_indices t
  refine ⟨t, flush0_3 t, ?_⟩
  rw [mem_out_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- Whatever the buffers hold when the region is entered, its output array ends at x·W + b of the three
    arrays it reads. -/
theorem region0_value (c : Dev nD) :
    (dat0 (F := Ideal) V c).arrAt 3 cfg0.N
      = Cert.Spec.inputLayer (V c main_arg0) (V c main_arg3) (V c main_arg4) :=
  (dat0 (F := Ideal) V c).arrAt_eq_of_cover 3 (Cert.Spec.inputLayer (V c main_arg0) (V c main_arg3) (V c main_arg4))
    (fun t _ => flushed_eq V c t) rows_covered

end Cert.KernelIdeal.Region0Value

end
-- ==== Proof.Region1.lean ====
/-
  The residual layer's region, as one function of the arrays it finds: per block of 5000 node rows, the
  aggregate scaled by the norm column, through the dense layer, bias, rectifier, plus the previous hidden
  rows; the twenty blocks fill the 100000×128 output.
-/
import proofs.«409191_j30193620090945_3_alg».proof.Proof.Gen.KernelIdeal.Frame
import proofs.«409191_j30193620090945_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1Value

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The block's arithmetic at one entry -/

/-- An a×1 column spread over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- In the block product (5000×128)·(128×128), the left operand's row is the output's row, -/
theorem lhs_dense_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the summation index; -/
theorem lhs_dense_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's row is the summation index, -/
theorem rhs_dense_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- its column the output's column. -/
theorem rhs_dense_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (p, q): the sum over k of l[p,k]·r[k,q]. -/
theorem dense_apply (l : FVec Ideal S5000x128 .f32) (r : FVec Ideal S128x128 .f32) (p : Fin 5000) (q : Fin 128) :
    FloatOps.matmul dot_S5000x128_S128x128_S5000x128_1_0_0_1_n_n (some .fp32) l r (constant (F := Ideal) S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dense_0 _ _
    | ⟨1, _⟩ => exact (lhs_dense_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er]

/-- The block the body stores, at entry (p, q): the previous hidden entry plus the rectified
    Σ_k (agg[p,k]·nrm[p])·W[k,q] + b[q]. -/
theorem payload_apply (x0 : Vec Ideal S5000x128 .f32) (x1 : Vec Ideal S5000x1 .f32) (x2 : Vec Ideal S128x128 .f32)
    (x3 : Vec Ideal S128 .f32) (x4 : Vec Ideal S5000x128 .f32) (p : Fin 5000) (q : Fin 128) :
    k1_pay1 (F := Ideal) x0 x1 x2 x3 x4 (ix2 p q)
      = x4 (ix2 p q) + max ((∑ k : Fin 128, (x0 (ix2 p k) * x1 (ix2 p (0 : Fin 1))) * x2 (ix2 k q)) + x3 (ix1 q)) 0 := by
  unfold k1_pay1
  show shapeCast S5000x128 x4 shapeCasts_S5000x128_S5000x128 (ix2 p q)
      + max (FloatOps.matmul dot_S5000x128_S128x128_S5000x128_1_0_0_1_n_n (some .fp32)
              (mulf (shapeCast S5000x128 x0 shapeCasts_S5000x128_S5000x128)
                (broadcastTo S5000x128 (shapeCast S5000x1 x1 shapeCasts_S5000x1_S5000x1) broadcasts_S5000x1_S5000x128))
              x2 (constant (F := Ideal) S5000x128 .f32 0x00000000#32) (ix2 p q)
            + broadcastTo S5000x128 (shapeCast S1x128 x3 shapeCasts_S128_S1x128) broadcasts_S1x128_S5000x128 (ix2 p q))
          (Ideal.ofBits .f32 0x00000000#32) = _
  rw [shapeCast_self x4, shapeCast_self x0, shapeCast_self x1, dense_apply, broadcastTo_1b_ab_apply,
    shapeCast_a_1a_apply, Ideal.ofBits_zero_f32]
  refine congrArg (fun s => x4 (ix2 p q) + max (s + x3 (ix1 q)) 0) (Finset.sum_congr rfl fun k _ => ?_)
  show x0 (ix2 p k) * broadcastTo S5000x128 x1 broadcasts_S5000x1_S5000x128 (ix2 p k) * x2 (ix2 k q) = _
  rw [broadcastTo_a1_ab_apply]

/-- If the five blocks are the arrays' rows 5000·t + p (aggregate, norm column, previous hidden rows) and the whole
    weights and bias, the stored block's entry (p, q) is the residual layer's entry (r, q) of the arrays. -/
theorem payload_eq_of_reads (x0 : Vec Ideal S5000x128 .f32) (x1 : Vec Ideal S5000x1 .f32) (x2 : Vec Ideal S128x128 .f32)
    (x3 : Vec Ideal S128 .f32) (x4 : Vec Ideal S5000x128 .f32)
    (A : Cert.Spec.Mat 100000 128) (N : Cert.Spec.Mat 100000 1) (W : Cert.Spec.Mat 128 128) (B : Cert.Spec.Vec1 128)
    (H : Cert.Spec.Mat 100000 128) (r : Fin 100000) (p : Fin 5000) (q : Fin 128)
    (h0 : ∀ k : Fin 128, x0 (ix2 p k) = A (ix2 r k)) (h1 : x1 (ix2 p (0 : Fin 1)) = N (ix2 r (0 : Fin 1)))
    (h2 : ∀ k : Fin 128, x2 (ix2 k q) = W (ix2 k q)) (h3 : x3 (ix1 q) = B (ix1 q)) (h4 : x4 (ix2 p q) = H (ix2 r q)) :
    k1_pay1 (F := Ideal) x0 x1 x2 x3 x4 (ix2 p q) = Cert.Spec.gcnPost A (Cert.Spec.col0 N) W B H (ix2 r q) := by
  rw [payload_apply, h1, h3, h4]
  show H (ix2 r q) + max ((∑ k : Fin 128, (x0 (ix2 p k) * N (ix2 r (0 : Fin 1))) * x2 (ix2 k q)) + B (ix1 q)) 0
    = H (ix2 r q) + max ((∑ k : Fin 128, (A (ix2 r k) * N (ix2 r (0 : Fin 1))) * W (ix2 k q)) + B (ix1 q)) 0
  refine congrArg (fun s => H (ix2 r q) + max (s + B (ix1 q)) 0) (Finset.sum_congr rfl fun k _ => ?_)
  rw [h0 k, h2 k]

/-! ## From the twenty blocks to the array -/

theorem zero_off2 : (![0, 0] : Fin 2 → Nat) = fun _ => 0 := funext fun a => by fin_cases a <;> rfl
theorem zero_off1 : (![0] : Fin 1 → Nat) = fun _ => 0 := funext fun a => by fin_cases a; rfl

/-- The residual layer of the five arrays the region reads, as one function of the node row and the column. -/
abbrev residual (c : Dev nD) : Cert.Spec.Mat 100000 128 :=
  Cert.Spec.gcnPost (V c main_v16) (Cert.Spec.col0 (V c main_v7)) (V c main_arg5) (V c main_arg6) (V c main_v9)

/-- Where each window's block sits at grid point t: the row-blocked arrays (aggregate, norm column, previous
    hidden rows, output) at row block t, the dense layer's weights and bias whole. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Node row 5000·t + p: row p of block t. -/
def row (t : Fin cfg1.N) (p : Fin 5000) : Fin 100000 :=
  ⟨t.val * 5000 + p.val, by have := t.isLt; have hN : cfg1.N = 20 := N_1; have := p.isLt; omega⟩

/-- Entry (p, q) of the output's block t is entry (5000·t + p, q) of the array. -/
theorem out_emb (t : Fin cfg1.N) (p : Fin 5000) (q : Fin 128) :
    ((cfg1.win 5).blk t).view.emb (ix2 p q) = ix2 (row t p) q := by
  obtain ⟨-, -, -, -, -, -, -, -, -, e0, e1⟩ := index_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- The aggregate's block t at (p, k) is the aggregate at (5000·t + p, k). -/
theorem agg_read (c : Dev nD) (t : Fin cfg1.N) (p : Fin 5000) (k : Fin 128) :
    (iblk1 V c 0 t : Vec Ideal S5000x128 .f32) (ix2 p k) = (V c main_v16 : S100000x128.Idx → EReal) (ix2 (row t p) k) := by
  obtain ⟨e0, e1, -⟩ := index_facts t
  have he : ((cfg1.win 0).blk t).view.emb (ix2 p k) = ix2 (row t p) k := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  show V c main_v16 (((cfg1.win 0).blk t).view.emb (ix2 p k)) = V c main_v16 (ix2 (row t p) k)
  rw [he]

/-- The norm column's block t at (p, 0) is the column at (5000·t + p, 0). -/
theorem nrm_read (c : Dev nD) (t : Fin cfg1.N) (p : Fin 5000) :
    (iblk1 V c 1 t : Vec Ideal S5000x1 .f32) (ix2 p (0 : Fin 1)) = (V c main_v7 : S100000x1.Idx → EReal) (ix2 (row t p) (0 : Fin 1)) := by
  obtain ⟨-, -, e0, e1, -⟩ := index_facts t
  have he : ((cfg1.win 1).blk t).view.emb (ix2 p (0 : Fin 1)) = ix2 (row t p) (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  show V c main_v7 (((cfg1.win 1).blk t).view.emb (ix2 p (0 : Fin 1))) = V c main_v7 (ix2 (row t p) (0 : Fin 1))
  rw [he]

/-- The weights' window is the whole matrix at every point. -/
theorem w_read (c : Dev nD) (t : Fin cfg1.N) (k q : Fin 128) :
    (iblk1 V c 2 t : Vec Ideal S128x128 .f32) (ix2 k q) = (V c main_arg5 : S128x128.Idx → EReal) (ix2 k q) := by
  obtain ⟨-, -, -, -, e0, e1, -⟩ := index_facts t
  have he : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  show V c main_arg5 (((cfg1.win 2).blk t).view.emb (ix2 k q)) = V c main_arg5 (ix2 k q)
  rw [he]

/-- The bias's window is the whole vector at every point. -/
theorem b_read (c : Dev nD) (t : Fin cfg1.N) (q : Fin 128) :
    (iblk1 V c 3 t : Vec Ideal S128 .f32) (ix1 q) = (V c main_arg6 : S128.Idx → EReal) (ix1 q) := by
  obtain ⟨-, -, -, -, -, -, e0, -⟩ := index_facts t
  have he : ((cfg1.win 3).blk t).view.emb (ix1 q) = ix1 q := by
    funext a; apply Fin.ext
    match a with
    | ⟨0, _⟩ => show win1_3.index t (0 : Fin 1) * 128 + 1 * q.val = q.val; omega
  show V c main_arg6 (((cfg1.win 3).blk t).view.emb (ix1 q)) = V c main_arg6 (ix1 q)
  rw [he]

/-- The previous hidden rows' block t at (p, q) is the array at (5000·t + p, q). -/
theorem hprev_read (c : Dev nD) (t : Fin cfg1.N) (p : Fin 5000) (q : Fin 128) :
    (iblk1 V c 4 t : Vec Ideal S5000x128 .f32) (ix2 p q) = (V c main_v9 : S100000x128.Idx → EReal) (ix2 (row t p) q) := by
  obtain ⟨-, -, -, -, -, -, -, e0, e1, -⟩ := index_facts t
  have he : ((cfg1.win 4).blk t).view.emb (ix2 p q) = ix2 (row t p) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show V c main_v9 (((cfg1.win 4).blk t).view.emb (ix2 p q)) = V c main_v9 (ix2 (row t p) q)
  rw [he]

/-- What point t writes back is block t of the residual layer. -/
theorem flushed_eq (c : Dev nD) (t : Fin cfg1.N) :
    (dat1 (F := Ideal) V c).flushed 5 t = ((cfg1.win 5).blk t).view.read (Elt Ideal) (residual V c) := by
  show (cfg1.win 5).cut (grid1.coords t) ((dat1 (F := Ideal) V c).after 5 t) = _
  rw [after1_5]
  unfold out1_5
  rw [View.canon_unit_zero zero_off2]
  simp only [View.ld_unit_zero (S := S5000x128) zero_off2, View.ld_unit_zero (S := S5000x1) zero_off2,
    View.ld_unit_zero (S := S128x128) zero_off2, View.ld_unit_zero (S := S128) zero_off1]
  funext j
  obtain ⟨p, q, rfl⟩ : ∃ (p : Fin 5000) (q : Fin 128), j = ix2 p q := ⟨j 0, j 1, eq_ix2 j⟩
  refine (payload_eq_of_reads (iblk1 V c 0 t) (iblk1 V c 1 t) (iblk1 V c 2 t) (iblk1 V c 3 t) (iblk1 V c 4 t)
    (V c main_v16) (V c main_v7) (V c main_arg5) (V c main_arg6) (V c main_v9) (row t p) p q
    (fun k => agg_read V c t p k) (nrm_read V c t p) (fun k => w_read V c t k q) (b_read V c t q) (hprev_read V c t p q)).trans ?_
  show residual V c (ix2 (row t p) q) = residual V c (((cfg1.win 5).blk t).view.emb (ix2 p q))
  rw [out_emb t p q]

/-- An array entry is in block t exactly when its row is one of the block's 5000 and its column one of the 128. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v17).slice (win1_5.rect t)).set ↔ _
  rw [View.set_slice_whole, Rect.mem_set_unit]
  exact Iff.rfl

/-- Row r lies in block r / 5000, one of the twenty; every point writes its block back. -/
theorem cover (i : S100000x128.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, -, -, -, -, e0, e1⟩ := index_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Whatever the buffers hold when the region is entered, its output array ends at the residual layer of
    the five arrays it reads. -/
theorem region1_value (c : Dev nD) :
    (dat1 (F := Ideal) V c).arrAt 5 cfg1.N
      = Cert.Spec.gcnPost (V c main_v16) (Cert.Spec.col0 (V c main_v7)) (V c main_arg5) (V c main_arg6) (V c main_v9) :=
  (dat1 (F := Ideal) V c).arrAt_eq_of_cover 5 (residual V c) (fun t _ => flushed_eq V c t) cover

end Cert.KernelIdeal.Region1Value

end
-- ==== Proof.KHostB.lean ====
/-
  From region 0's entry to region 1's exit: region 0 leaves the input layer's rows; the take of those rows
  at the source ids, scaled by the per-edge source norm, is the message array; its sum into destination
  rows is what region 1 reads, and region 1 leaves the residual layer's rows.
-/
import proofs.«409191_j30193620090945_3_alg».proof.Proof.KHostDefs
import proofs.«409191_j30193620090945_3_alg».proof.Proof.LibGather
import proofs.«409191_j30193620090945_3_alg».proof.Proof.KTake
import proofs.«409191_j30193620090945_3_alg».proof.Proof.Region0
import proofs.«409191_j30193620090945_3_alg».proof.Proof.Region1
import Idealize.ShloMosaic.Lib.StableHlo.Run
import Idealize.ShloMosaic.Lib.StableHlo.Predicate
import Idealize.ShloMosaic.Lib.ReduceAll
import Idealize.ShloMosaic.Lib.Pipeline.Value

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The two host stretches between the regions, over any contents -/

/-- The references the take of the hidden rows writes: its constants, its intermediate arrays, its result. -/
abbrev takeWritten : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14,
   main_call2_cst, main_call2_v15, main_v10]

/-- The references the scaling and the sum into destination rows write. -/
abbrev sumWritten : List (Ref sig .tc) :=
  [main_v11, main_v12, main_v13, main_cst_3, main_v14, main_v15, main_v16]

theorem take_writes : (hostOps1 : List (HloOp τ sig (Elt Ideal))).Forall fun op =>
    op.writes ⊆ (takeWritten.map (Proc.devRef (τ := τ) .tc)).toFinset := by
  simp only [hostOps1, List.Forall, StableHlo.nullary_writes, StableHlo.unary_writes, StableHlo.binary_writes,
    StableHlo.ternary_writes, Finset.singleton_subset_iff, List.mem_toFinset]
  repeat' apply And.intro
  all_goals exact List.mem_map_of_mem (by decide)

theorem sum_writes : (hostOps1_1 : List (HloOp τ sig (Elt Ideal))).Forall fun op =>
    op.writes ⊆ (sumWritten.map (Proc.devRef (τ := τ) .tc)).toFinset := by
  simp only [hostOps1_1, List.Forall, StableHlo.nullary_writes, StableHlo.unary_writes, StableHlo.binary_writes,
    StableHlo.ternary_writes, Finset.singleton_subset_iff, List.mem_toFinset]
  repeat' apply And.intro
  all_goals exact List.mem_map_of_mem (by decide)

/-- Contents moved to a typed reference's own buffer type and back are the contents. -/
theorem ofBuf_toBuf {Val : EltTy → Type} {T : BufTy} (x : StableHlo.TRef sig T) (v : T.Contents Val) :
    x.ofBuf (x.toBuf v) = v := by
  obtain ⟨r, h, h1, h2⟩ := x
  subst h
  rfl

/-- At the take's result buffer, whose type is the rows' own, the move is the identity. -/
theorem toBuf_rows (z : FVec Ideal S800000x128 .f32) :
    (StableHlo.TRef.of main_v10 : StableHlo.TRef sig ⟨S800000x128, .f32⟩).toBuf (Val := Elt Ideal) z
      = (z : (Proc.devRef (τ := τ) .tc main_v10).ty.Contents (Elt Ideal)) := rfl

/-- The take's result buffer holds the rows of the hidden array taken at the source ids. -/
theorem take_result (Vv : Valuation τ sig (Elt Ideal)) :
    StableHlo.after hostOps1 Vv (Proc.devRef .tc main_v10)
      = takeRows (Vv (Proc.devRef .tc main_v9)) (Vv (Proc.devRef .tc main_arg1)) := by
  generalize hX : takeRows (Vv (Proc.devRef .tc main_v9)) (Vv (Proc.devRef .tc main_arg1)) = X
  after_results_simp
  simp only [ofBuf_toBuf]
  subst hX
  refine (toBuf_rows _).trans ?_
  rfl

/-- The sum's result buffer holds the taken rows, scaled by the per-edge norm, summed into destination rows. -/
theorem sum_result (Vv : Valuation τ sig (Elt Ideal)) :
    StableHlo.after hostOps1_1 Vv (Proc.devRef .tc main_v16)
      = scK (Vv (Proc.devRef .tc main_arg2))
          (scaleRows (Vv (Proc.devRef .tc main_v10)) (Vv (Proc.devRef .tc main_v8))) := by
  after_results
  rfl

/-! ## Carrying a buffer across the stretches and across region 0 -/

/-- A reference the take does not write holds after it what it held at region 0's exit. -/
theorem W6_of_W5 (c : Dev nD) (b : Ref sig .tc) (h1 : b ∉ takeWritten) :
    W6 m ρ c (Proc.devRef .tc b) = W5 m ρ c (Proc.devRef .tc b) :=
  StableHlo.after_of_writes_sub hostOps1 (W5 m ρ c) take_writes h1

/-- A reference the scaling and the sum do not write holds at region 1's entry what it held before them. -/
theorem W7_of_W6 (c : Dev nD) (b : Ref sig .tc) (h2 : b ∉ sumWritten) :
    W7 m ρ c (Proc.devRef .tc b) = W6 m ρ c (Proc.devRef .tc b) :=
  StableHlo.after_of_writes_sub hostOps1_1 (W6 m ρ c) sum_writes h2

/-- A reference that is not one of region 0's arrays and that neither stretch writes holds at region 1's
    entry what it held at region 0's entry. -/
theorem W7_of_W4 (c : Dev nD) (b : Ref sig .tc) (h0 : ∀ w, Pipeline.arrRef spec0 w ≠ b)
    (h1 : b ∉ takeWritten) (h2 : b ∉ sumWritten) :
    W7 m ρ c (Proc.devRef .tc b) = W4 m ρ c (Proc.devRef .tc b) :=
  (W7_of_W6 m ρ c b h2).trans ((W6_of_W5 m ρ c b h1).trans (W5_of_ne m ρ c b h0))

/-- The same up to the take only. -/
theorem W6_of_W4 (c : Dev nD) (b : Ref sig .tc) (h0 : ∀ w, Pipeline.arrRef spec0 w ≠ b) (h1 : b ∉ takeWritten) :
    W6 m ρ c (Proc.devRef .tc b) = W4 m ρ c (Proc.devRef .tc b) :=
  (W6_of_W5 m ρ c b h1).trans (W5_of_ne m ρ c b h0)

/-! ## The values along the way -/

/-- Region 0 leaves the input layer's rows in its output array. -/
theorem hidden_at5 (c : Dev nD) (s : Fin 800000 → Fin 100000) (h4 : At4 m ρ c s) :
    W5 m ρ c (Proc.devRef .tc main_v9)
      = Cert.Spec.inputLayer (m ((c : Thread nD τ).loc main_arg0)) (m ((c : Thread nD τ).loc main_arg3)) (m ((c : Thread nD τ).loc main_arg4)) := by
  refine (W5_arr m ρ c 3).trans ((Cert.KernelIdeal.Region0Value.region0_value (V4 m ρ) c).trans ?_)
  have x0 : V4 m ρ c main_arg0 = m ((c : Thread nD τ).loc main_arg0) := h4.a0
  have x3 : V4 m ρ c main_arg3 = m ((c : Thread nD τ).loc main_arg3) := h4.a3
  have x4 : V4 m ρ c main_arg4 = m ((c : Thread nD τ).loc main_arg4) := h4.a4
  rw [x0, x3, x4]

/-- The sum's result at region 1's entry: the messages of the input layer's rows summed into destination rows. -/
theorem agg_at7 (c : Dev nD) (s : Fin 800000 → Fin 100000) (hs : SrcIs m c s) (h4 : At4 m ρ c s) :
    W7 m ρ c (Proc.devRef .tc main_v16)
      = scK (m ((c : Thread nD τ).loc main_arg2))
          (Cert.Spec.msg (Cert.Spec.inputLayer (m ((c : Thread nD τ).loc main_arg0)) (m ((c : Thread nD τ).loc main_arg3)) (m ((c : Thread nD τ).loc main_arg4)))
            (nrmK (m ((c : Thread nD τ).loc main_arg2))) s) := by
  have e5_1 : W5 m ρ c (Proc.devRef .tc main_arg1) = m ((c : Thread nD τ).loc main_arg1) :=
    (W5_of_ne m ρ c main_arg1 (by decide)).trans h4.a1
  have e6_10 : W6 m ρ c (Proc.devRef .tc main_v10)
      = takeRows (Cert.Spec.inputLayer (m ((c : Thread nD τ).loc main_arg0)) (m ((c : Thread nD τ).loc main_arg3)) (m ((c : Thread nD τ).loc main_arg4)))
          (m ((c : Thread nD τ).loc main_arg1)) := by
    refine (take_result (W5 m ρ c)).trans ?_
    rw [hidden_at5 m ρ c s h4, e5_1]
  have e6_2 : W6 m ρ c (Proc.devRef .tc main_arg2) = m ((c : Thread nD τ).loc main_arg2) :=
    (W6_of_W4 m ρ c main_arg2 (by decide) (by decide)).trans h4.a2
  have e6_8 : W6 m ρ c (Proc.devRef .tc main_v8) = nrmSrc (m ((c : Thread nD τ).loc main_arg2)) s :=
    (W6_of_W4 m ρ c main_v8 (by decide) (by decide)).trans h4.v8
  refine (sum_result (W6 m ρ c)).trans ?_
  rw [e6_2, e6_10, e6_8]
  exact congrArg (scK (m ((c : Thread nD τ).loc main_arg2)))
    (takeRows_scaled_eq _ (nrmK (m ((c : Thread nD τ).loc main_arg2))) (m ((c : Thread nD τ).loc main_arg1)) s hs)

/-- The norm column read back as a vector is the norm. -/
theorem col0_nrmCol (dst : IVec S800000 32) : Cert.Spec.col0 (nrmCol dst) = nrmK dst := by
  funext i
  show nrmK dst (ix1 (i 0)) = nrmK dst i
  exact congrArg (nrmK dst) (eq_ix1 i).symm

/-- What region 1 leaves, from what region 0 found. -/
theorem at8_of_at4 (c : Dev nD) (s : Fin 800000 → Fin 100000) (hs : SrcIs m c s) (h4 : At4 m ρ c s) :
    At8 m ρ c s
      (Cert.Spec.gcnPost
        (scK (m ((c : Thread nD τ).loc main_arg2)) (Cert.Spec.msg (Cert.Spec.inputLayer (m ((c : Thread nD τ).loc main_arg0)) (m ((c : Thread nD τ).loc main_arg3)) (m ((c : Thread nD τ).loc main_arg4))) (nrmK (m ((c : Thread nD τ).loc main_arg2))) s))
        (nrmK (m ((c : Thread nD τ).loc main_arg2))) (m ((c : Thread nD τ).loc main_arg5)) (m ((c : Thread nD τ).loc main_arg6))
        (Cert.Spec.inputLayer (m ((c : Thread nD τ).loc main_arg0)) (m ((c : Thread nD τ).loc main_arg3)) (m ((c : Thread nD τ).loc main_arg4)))) := by
  have e7_7 : W7 m ρ c (Proc.devRef .tc main_v7) = nrmCol (m ((c : Thread nD τ).loc main_arg2)) :=
    (W7_of_W4 m ρ c main_v7 (by decide) (by decide) (by decide)).trans h4.v7
  have e8_17 : W8 m ρ c (Proc.devRef .tc main_v17)
      = (Cert.Spec.gcnPost (scK (m ((c : Thread nD τ).loc main_arg2)) (Cert.Spec.msg (Cert.Spec.inputLayer (m ((c : Thread nD τ).loc main_arg0)) (m ((c : Thread nD τ).loc main_arg3)) (m ((c : Thread nD τ).loc main_arg4))) (nrmK (m ((c : Thread nD τ).loc main_arg2))) s)) (nrmK (m ((c : Thread nD τ).loc main_arg2))) (m ((c : Thread nD τ).loc main_arg5)) (m ((c : Thread nD τ).loc main_arg6)) (Cert.Spec.inputLayer (m ((c : Thread nD τ).loc main_arg0)) (m ((c : Thread nD τ).loc main_arg3)) (m ((c : Thread nD τ).loc main_arg4)))) := by
    refine (W8_arr m ρ c 5).trans ((Cert.KernelIdeal.Region1Value.region1_value (V7 m ρ) c).trans ?_)
    have x16 : V7 m ρ c main_v16 = _ := agg_at7 m ρ c s hs h4
    have x7 : V7 m ρ c main_v7 = _ := e7_7
    have x5 : V7 m ρ c main_arg5 = m ((c : Thread nD τ).loc main_arg5) :=
      (W7_of_W4 m ρ c main_arg5 (by decide) (by decide) (by decide)).trans h4.a5
    have x6 : V7 m ρ c main_arg6 = m ((c : Thread nD τ).loc main_arg6) :=
      (W7_of_W4 m ρ c main_arg6 (by decide) (by decide) (by decide)).trans h4.a6
    have x9 : V7 m ρ c main_v9 = _ :=
      (W7_of_W6 m ρ c main_v9 (by decide)).trans ((W6_of_W5 m ρ c main_v9 (by decide)).trans (hidden_at5 m ρ c s h4))
    rw [x16, x7, x5, x6, x9, col0_nrmCol]
  exact
    { a1 := (W8_of_ne m ρ c main_arg1 (by decide)).trans ((W7_of_W4 m ρ c main_arg1 (by decide) (by decide) (by decide)).trans h4.a1)
      a2 := (W8_of_ne m ρ c main_arg2 (by decide)).trans ((W7_of_W4 m ρ c main_arg2 (by decide) (by decide) (by decide)).trans h4.a2)
      a7 := (W8_of_ne m ρ c main_arg7 (by decide)).trans ((W7_of_W4 m ρ c main_arg7 (by decide) (by decide) (by decide)).trans h4.a7)
      a8 := (W8_of_ne m ρ c main_arg8 (by decide)).trans ((W7_of_W4 m ρ c main_arg8 (by decide) (by decide) (by decide)).trans h4.a8)
      a9 := (W8_of_ne m ρ c main_arg9 (by decide)).trans ((W7_of_W4 m ρ c main_arg9 (by decide) (by decide) (by decide)).trans h4.a9)
      a10 := (W8_of_ne m ρ c main_arg10 (by decide)).trans ((W7_of_W4 m ρ c main_arg10 (by decide) (by decide) (by decide)).trans h4.a10)
      v7 := ((W8_arr m ρ c 1).trans (((dat1 (V7 m ρ) c).arrAt_in 1 rfl _).trans (A_eq1 (V7 m ρ) c 1))).trans e7_7
      v8 := (W8_of_ne m ρ c main_v8 (by decide)).trans ((W7_of_W4 m ρ c main_v8 (by decide) (by decide) (by decide)).trans h4.v8)
      v17 := e8_17 }

end Cert.KernelIdeal.HostValue

end
-- ==== Proof.KHostC.lean ====
/-
  From region 1's exit to region 2's entry: the take of the hidden rows at the source ids, scaled by the
  per-edge source norm, summed into destination rows; and the output layer's weights and bias padded with
  zero columns from 64 to 128, whose first 64 columns are the arguments'.
-/
import proofs.«409191_j30193620090945_3_alg».proof.Proof.KHostDefs
import proofs.«409191_j30193620090945_3_alg».proof.Proof.LibGather
import proofs.«409191_j30193620090945_3_alg».proof.Proof.KTake
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.KernelVsHost

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx Idealize.SL.Sem

/-! ## What each stretch computes, from any contents `V` at its start -/

/-- Closes `after ops V b = V b` for a buffer `b` that no operation of the stretch `ops` writes: each operation
    writes one buffer, and `b` is none of them. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- Contents moved to a typed reference's buffer type and back are themselves. -/
theorem ofBuf_toBuf {Val : EltTy → Type} {T : BufTy} (x : StableHlo.TRef sig T) (v : T.Contents Val) :
    x.ofBuf (x.toBuf v) = v := by
  obtain ⟨r, h, _, _⟩ := x
  subst h
  rfl

set_option maxHeartbeats 1600000 in
/-- The take stretch leaves in its result buffer the rows of the hidden array taken at the source ids. -/
theorem take_v18 (V : Valuation τ sig (Elt Ideal)) :
    StableHlo.after hostOps2 V (Proc.devRef .tc main_v18)
      = takeRows (V (Proc.devRef .tc main_v17)) (V (Proc.devRef .tc main_arg1)) := by
  have e18 : ∀ X : (⟨S800000x128, .f32⟩ : BufTy).Contents (Elt Ideal),
      (StableHlo.TRef.of main_v18 : StableHlo.TRef sig ⟨S800000x128, .f32⟩).toBuf X = X := fun _ => rfl
  have e17 : (StableHlo.TRef.of main_v17 : StableHlo.TRef sig ⟨S100000x128, .f32⟩).ofBuf (V (Proc.devRef .tc main_v17))
      = V (Proc.devRef .tc main_v17) := rfl
  have e1 : (StableHlo.TRef.of main_arg1 : StableHlo.TRef sig ⟨S800000, .i32⟩).ofBuf (V (Proc.devRef .tc main_arg1))
      = V (Proc.devRef .tc main_arg1) := rfl
  after_results_simp
  simp only [ofBuf_toBuf, e18, e17, e1]
  rfl

/-- The next stretch scales the taken rows by the per-edge norm and sums them into destination rows. -/
theorem scat_v24 (V : Valuation τ sig (Elt Ideal)) :
    StableHlo.after hostOps2_1 V (Proc.devRef .tc main_v24)
      = scK (V (Proc.devRef .tc main_arg2))
          (scaleRows (V (Proc.devRef .tc main_v18)) (V (Proc.devRef .tc main_v8))) := by
  after_results
  rfl

/-- The weights' pad: 64 more columns on the right, of a value that is never read below. -/
theorem pad_v25 (V : Valuation τ sig (Elt Ideal)) :
    StableHlo.after hostOps2_2 V (Proc.devRef .tc main_v25)
      = pad S128x128 ![0, 0] ![0, 64] ![0, 0] (V (Proc.devRef .tc main_arg9))
          (sitofp (F := Ideal) .f32 (V (Proc.devRef .tc main_c))) pads_S128x64_S128x128_000_0640 h_S_ := by
  after_results
  rfl

/-- The bias's pad: 64 more entries on the right. -/
theorem pad_v26 (V : Valuation τ sig (Elt Ideal)) :
    StableHlo.after hostOps2_4 V (Proc.devRef .tc main_v26)
      = pad S128 ![0] ![64] ![0] (V (Proc.devRef .tc main_arg10))
          (sitofp (F := Ideal) .f32 (V (Proc.devRef .tc main_c_5))) pads_S64_S128_0640 h_S_ := by
  after_results
  rfl

/-- A matrix padded on the right, read at a column of the operand, is the operand there. -/
theorem pad_cols_apply (x : FVec Ideal S128x64 .f32) (v : FVec Ideal S_ .f32) (k : Fin 128) (j : Fin 64) :
    pad S128x128 ![0, 0] ![0, 64] ![0, 0] x v pads_S128x64_S128x128_000_0640 h_S_
        (ix2 k (⟨j.val, by omega⟩ : Fin 128)) = x (ix2 k j) :=
  pad_apply_of_inside _ _ _ x v pads_S128x64_S128x128_000_0640 h_S_ _ (ix2 k j) (fun a => by
    match a with
    | ⟨0, _⟩ => show k.val = 0 + k.val * (0 + 1); omega
    | ⟨1, _⟩ => show j.val = 0 + j.val * (0 + 1); omega)

/-- A vector padded on the right, read at an entry of the operand, is the operand there. -/
theorem pad_vec_apply (x : FVec Ideal S64 .f32) (v : FVec Ideal S_ .f32) (j : Fin 64) :
    pad S128 ![0] ![64] ![0] x v pads_S64_S128_0640 h_S_ (ix1 (⟨j.val, by omega⟩ : Fin 128)) = x (ix1 j) :=
  pad_apply_of_inside _ _ _ x v pads_S64_S128_0640 h_S_ _ (ix1 j) (fun a => by
    match a with
    | ⟨0, _⟩ => show j.val = 0 + j.val * (0 + 1); omega)

variable (m : (ℓ : Loc nD τ sig) → Buf (Elt Ideal) ℓ) (ρ : Dev nD → PrngReg)

/-- What region 2 finds, from what region 1 left. -/
theorem at13_of_at8 (c : Dev nD) (s : Fin 800000 → Fin 100000) (hs : SrcIs m c s) (h1 : Cert.Spec.Mat 100000 128)
    (h8 : At8 m ρ c s h1) :
    At13 m ρ c (scK (m ((c : Thread nD τ).loc main_arg2)) (Cert.Spec.msg h1 (nrmK (m ((c : Thread nD τ).loc main_arg2))) s)) := by
  -- after the take: the destination ids, the per-edge norm and the taken rows
  have a2_9 : W9 m ρ c (Proc.devRef .tc main_arg2) = m ((c : Thread nD τ).loc main_arg2) :=
    (show W9 m ρ c (Proc.devRef .tc main_arg2) = W8 m ρ c (Proc.devRef .tc main_arg2) by keeps hostOps2).trans h8.a2
  have v8_9 : W9 m ρ c (Proc.devRef .tc main_v8) = nrmSrc (m ((c : Thread nD τ).loc main_arg2)) s :=
    (show W9 m ρ c (Proc.devRef .tc main_v8) = W8 m ρ c (Proc.devRef .tc main_v8) by keeps hostOps2).trans h8.v8
  have v18_9 : W9 m ρ c (Proc.devRef .tc main_v18) = takeRows h1 (m ((c : Thread nD τ).loc main_arg1)) :=
    (take_v18 (W8 m ρ c)).trans (by rw [h8.v17, h8.a1])
  -- the scaled rows are the messages; their sum into destination rows is the aggregate
  have v24_10 : W10 m ρ c (Proc.devRef .tc main_v24)
      = scK (m ((c : Thread nD τ).loc main_arg2)) (Cert.Spec.msg h1 (nrmK (m ((c : Thread nD τ).loc main_arg2))) s) := by
    refine (scat_v24 (W9 m ρ c)).trans ?_
    rw [a2_9, v18_9, v8_9]
    exact congrArg (scK (m ((c : Thread nD τ).loc main_arg2)))
      (takeRows_scaled_eq h1 (nrmK (m ((c : Thread nD τ).loc main_arg2))) (m ((c : Thread nD τ).loc main_arg1)) s hs)
  -- the output layer's weights and bias where their pads read them
  have a9_10 : W10 m ρ c (Proc.devRef .tc main_arg9) = m ((c : Thread nD τ).loc main_arg9) :=
    calc W10 m ρ c (Proc.devRef .tc main_arg9)
      _ = W9 m ρ c (Proc.devRef .tc main_arg9) := by keeps hostOps2_1
      _ = W8 m ρ c (Proc.devRef .tc main_arg9) := by keeps hostOps2
      _ = _ := h8.a9
  have a10_12 : W12 m ρ c (Proc.devRef .tc main_arg10) = m ((c : Thread nD τ).loc main_arg10) :=
    calc W12 m ρ c (Proc.devRef .tc main_arg10)
      _ = W11 m ρ c (Proc.devRef .tc main_arg10) := by keeps hostOps2_3
      _ = W10 m ρ c (Proc.devRef .tc main_arg10) := by keeps hostOps2_2
      _ = W9 m ρ c (Proc.devRef .tc main_arg10) := by keeps hostOps2_1
      _ = W8 m ρ c (Proc.devRef .tc main_arg10) := by keeps hostOps2
      _ = _ := h8.a10
  refine ⟨?_, ?_, ?_, ?_, ?_, ?_⟩
  · calc W13 m ρ c (Proc.devRef .tc main_v24)
      _ = W12 m ρ c (Proc.devRef .tc main_v24) := by keeps hostOps2_4
      _ = W11 m ρ c (Proc.devRef .tc main_v24) := by keeps hostOps2_3
      _ = W10 m ρ c (Proc.devRef .tc main_v24) := by keeps hostOps2_2
      _ = _ := v24_10
  · calc W13 m ρ c (Proc.devRef .tc main_v7)
      _ = W12 m ρ c (Proc.devRef .tc main_v7) := by keeps hostOps2_4
      _ = W11 m ρ c (Proc.devRef .tc main_v7) := by keeps hostOps2_3
      _ = W10 m ρ c (Proc.devRef .tc main_v7) := by keeps hostOps2_2
      _ = W9 m ρ c (Proc.devRef .tc main_v7) := by keeps hostOps2_1
      _ = W8 m ρ c (Proc.devRef .tc main_v7) := by keeps hostOps2
      _ = _ := h8.v7
  · calc W13 m ρ c (Proc.devRef .tc main_arg7)
      _ = W12 m ρ c (Proc.devRef .tc main_arg7) := by keeps hostOps2_4
      _ = W11 m ρ c (Proc.devRef .tc main_arg7) := by keeps hostOps2_3
      _ = W10 m ρ c (Proc.devRef .tc main_arg7) := by keeps hostOps2_2
      _ = W9 m ρ c (Proc.devRef .tc main_arg7) := by keeps hostOps2_1
      _ = W8 m ρ c (Proc.devRef .tc main_arg7) := by keeps hostOps2
      _ = _ := h8.a7
  · calc W13 m ρ c (Proc.devRef .tc main_arg8)
      _ = W12 m ρ c (Proc.devRef .tc main_arg8) := by keeps hostOps2_4
      _ = W11 m ρ c (Proc.devRef .tc main_arg8) := by keeps hostOps2_3
      _ = W10 m ρ c (Proc.devRef .tc main_arg8) := by keeps hostOps2_2
      _ = W9 m ρ c (Proc.devRef .tc main_arg8) := by keeps hostOps2_1
      _ = W8 m ρ c (Proc.devRef .tc main_arg8) := by keeps hostOps2
      _ = _ := h8.a8
  · intro k j
    have e : W13 m ρ c (Proc.devRef .tc main_v25)
        = pad S128x128 ![0, 0] ![0, 64] ![0, 0] (m ((c : Thread nD τ).loc main_arg9))
            (sitofp (F := Ideal) .f32 (W10 m ρ c (Proc.devRef .tc main_c))) pads_S128x64_S128x128_000_0640 h_S_ :=
      calc W13 m ρ c (Proc.devRef .tc main_v25)
        _ = W12 m ρ c (Proc.devRef .tc main_v25) := by keeps hostOps2_4
        _ = W11 m ρ c (Proc.devRef .tc main_v25) := by keeps hostOps2_3
        _ = _ := pad_v25 (W10 m ρ c)
        _ = _ := by rw [a9_10]
    rw [e]
    exact pad_cols_apply _ _ k j
  · intro j
    have e : W13 m ρ c (Proc.devRef .tc main_v26)
        = pad S128 ![0] ![64] ![0] (m ((c : Thread nD τ).loc main_arg10))
            (sitofp (F := Ideal) .f32 (W12 m ρ c (Proc.devRef .tc main_c_5))) pads_S64_S128_0640 h_S_ :=
      (pad_v26 (W12 m ρ c)).trans (by rw [a10_12])
    rw [e]
    exact pad_vec_apply _ _ j

end Cert.KernelIdeal.HostValue

end
-- ==== Proof.Region2.lean ====
/-
  The last layer's region, as one function of the arrays it finds: per block of 5000 node rows, the
  aggregate scaled by the norm column, through the dense layer, bias and rectifier, then through the
  (128-column) output layer; the twenty blocks fill the 100000×128 output.
-/
import proofs.«409191_j30193620090945_3_alg».proof.Proof.Gen.KernelIdeal.Frame
import proofs.«409191_j30193620090945_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2Value

open Cert.KernelIdeal Cert.KernelIdeal.Gen Idealize.ShloMosaic Idealize.ShloMosaic.TcCoe Idealize.ShloMosaic.ValueIdx
open Idealize.SL.Sem
open Idealize.ShloMosaic.Pipeline (Dat)

/-! ## Layout operations of the body, read at a row and a column -/

theorem zero2 : (![0, 0] : Fin 2 → Nat) = fun _ => 0 :=
  funext fun a => by match a with | ⟨0, _⟩ => rfl | ⟨1, _⟩ => rfl

theorem zero1 : (![0] : Fin 1 → Nat) = fun _ => 0 :=
  funext fun a => by match a with | ⟨0, _⟩ => rfl

/-- A one-column matrix broadcast along the columns reads, at (p, c), its entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector laid out as one row and broadcast down the rows reads, at (p, c), its entry c. -/
theorem rowBias_apply {α : Type} (v : S128.Idx → α) (p : Fin 5000) (c : Fin 128) :
    broadcastTo S5000x128 (shapeCast S1x128 v shapeCasts_S128_S1x128) broadcasts_S1x128_S5000x128 (ix2 p c) = v (ix1 c) := by
  rw [broadcastTo_1b_ab_apply, shapeCast_a_1a_apply]

/-! ## The contraction: a product into a zero accumulator is the sum over the shared axis -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000×128 by 128×128 product into the zero block, at (p, q): row p against column q. -/
theorem matmul_zero_apply (a : FVec Ideal S5000x128 .f32) (b : FVec Ideal S128x128 .f32) (p : Fin 5000) (q : Fin 128) :
    matmul dot_S5000x128_S128x128_S5000x128_1_0_0_1_n_n (some .fp32) a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n (some .fp32) a b (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_dot_0 _ _).trans hk
    | ⟨1, _⟩ => exact rhs_dot_1 _ _)
  rw [el, er]

/-- The zero word read as an extended real. -/
theorem zero_word : (FloatOps.ofBits (F := Ideal) .f32 0x00000000#32 : EReal) = 0 := Ideal.ofBits_zero_f32

/-! ## The body's one payload, entry by entry -/

/-- Entry (p, q) of the block the body stores: row p of the aggregate block scaled by the norm block's entry p,
    through the dense layer, bias and rectifier, then row against column q of the output layer, plus its bias. -/
theorem pay_apply (x0 : Vec Ideal S5000x128 .f32) (x1 : Vec Ideal S5000x1 .f32) (x2 : Vec Ideal S128x128 .f32)
    (x3 : Vec Ideal S128 .f32) (x4 : Vec Ideal S128x128 .f32) (x5 : Vec Ideal S128 .f32) (p : Fin 5000) (q : Fin 128) :
    k2_pay1 (F := Ideal) x0 x1 x2 x3 x4 x5 (ix2 p q)
      = (∑ k : Fin 128, max ((∑ l : Fin 128, (x0 (ix2 p l) * x1 (ix2 p (0 : Fin 1))) * x2 (ix2 l k)) + x3 (ix1 k)) 0 * x4 (ix2 k q)) + x5 (ix1 q) := by
  unfold k2_pay1
  rw [addf_apply, matmul_zero_apply, rowBias_apply]
  simp only [shapeCast_self, maximumf_apply, addf_apply, broadcast_apply, matmul_zero_apply, rowBias_apply, mulf_apply,
    broadcastTo_a1_ab_apply, zero_word]

/-! ## One entry of the last layer, from a block's entries -/

/-- If row p of the aggregate and norm blocks is row r of their arrays, and the four small operands are whole, the
    stored entry (p, q) is the last layer's entry (r, q). -/
theorem pay_eq_spec (A0 : Cert.Spec.Mat 100000 128) (A1 : Cert.Spec.Mat 100000 1) (A2 : Cert.Spec.Mat 128 128)
    (A3 : Cert.Spec.Vec1 128) (A4 : Cert.Spec.Mat 128 128) (A5 : Cert.Spec.Vec1 128)
    (x0 : Vec Ideal S5000x128 .f32) (x1 : Vec Ideal S5000x1 .f32) (x2 : Vec Ideal S128x128 .f32)
    (x3 : Vec Ideal S128 .f32) (x4 : Vec Ideal S128x128 .f32) (x5 : Vec Ideal S128 .f32)
    (r : Fin 100000) (p : Fin 5000) (q : Fin 128)
    (h0 : ∀ l : Fin 128, x0 (ix2 p l) = A0 (ix2 r l)) (h1 : x1 (ix2 p (0 : Fin 1)) = A1 (ix2 r (0 : Fin 1)))
    (h2 : ∀ l k : Fin 128, x2 (ix2 l k) = A2 (ix2 l k)) (h3 : ∀ k : Fin 128, x3 (ix1 k) = A3 (ix1 k))
    (h4 : ∀ k : Fin 128, x4 (ix2 k q) = A4 (ix2 k q)) (h5 : x5 (ix1 q) = A5 (ix1 q)) :
    k2_pay1 (F := Ideal) x0 x1 x2 x3 x4 x5 (ix2 p q)
      = Cert.Spec.gcnFinal (n := 128) A0 (Cert.Spec.col0 A1) A2 A3 A4 A5 (ix2 r q) := by
  rw [pay_apply, h1, h5]
  simp only [h0, h2, h3, h4]
  rfl

variable (V : (c : Dev nD) → (b : Ref sig .tc) → Buf (Elt Ideal) ((c : Thread nD τ).loc b))

/-! ## From the twenty blocks to the array -/

/-- The windows' index maps over the grid: the aggregate and norm blocks move with the output's row block, which is
    the point's number; the four small operands sit at block 0. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of point t's aggregate block is node row 5000·t + p of the aggregate. -/
theorem agg_blk (c : Dev nD) (t : Fin cfg2.N) (p : Fin 5000) (l : Fin 128) (r : Fin 100000)
    (hr : r.val = t.val * 5000 + p.val) :
    (iblk2 V c 0 t : Vec Ideal S5000x128 .f32) (ix2 p l) = (V c main_v24 : Cert.Spec.Mat 100000 128) (ix2 r l) := by
  obtain ⟨e00, e01, -, -, -, -, -, -, -, -, e60, -⟩ := idx_facts t
  show V c main_v24 (((cfg2.win 0).blk t).view.emb (ix2 p l)) = V c main_v24 (ix2 r l)
  refine congrArg (V c main_v24) (funext fun a => Fin.ext ?_)
  match a with
  | ⟨0, _⟩ => show win2_0.index t (0 : Fin 2) * 5000 + 1 * p.val = r.val; rw [e00, e60, hr]; omega
  | ⟨1, _⟩ => show win2_0.index t (1 : Fin 2) * 128 + 1 * l.val = l.val; rw [e01]; omega

/-- Entry p of point t's norm block is node 5000·t + p's entry of the norm column. -/
theorem nrm_blk (c : Dev nD) (t : Fin cfg2.N) (p : Fin 5000) (r : Fin 100000)
    (hr : r.val = t.val * 5000 + p.val) :
    (iblk2 V c 1 t : Vec Ideal S5000x1 .f32) (ix2 p (0 : Fin 1)) = (V c main_v7 : Cert.Spec.Mat 100000 1) (ix2 r (0 : Fin 1)) := by
  obtain ⟨-, -, e10, e11, -, -, -, -, -, -, e60, -⟩ := idx_facts t
  show V c main_v7 (((cfg2.win 1).blk t).view.emb (ix2 p (0 : Fin 1))) = V c main_v7 (ix2 r (0 : Fin 1))
  refine congrArg (V c main_v7) (funext fun a => Fin.ext ?_)
  match a with
  | ⟨0, _⟩ => show win2_1.index t (0 : Fin 2) * 5000 + 1 * p.val = r.val; rw [e10, e60, hr]; omega
  | ⟨1, _⟩ => show win2_1.index t (1 : Fin 2) * 1 + 1 * 0 = 0; rw [e11]

/-- The dense layer's weights are staged whole at every point. -/
theorem w_blk (c : Dev nD) (t : Fin cfg2.N) (l k : Fin 128) :
    (iblk2 V c 2 t : Vec Ideal S128x128 .f32) (ix2 l k) = (V c main_arg7 : Cert.Spec.Mat 128 128) (ix2 l k) := by
  obtain ⟨-, -, -, -, e20, e21, -, -, -, -, -, -⟩ := idx_facts t
  show V c main_arg7 (((cfg2.win 2).blk t).view.emb (ix2 l k)) = V c main_arg7 (ix2 l k)
  refine congrArg (V c main_arg7) (funext fun a => Fin.ext ?_)
  match a with
  | ⟨0, _⟩ => show win2_2.index t (0 : Fin 2) * 128 + 1 * l.val = l.val; rw [e20]; omega
  | ⟨1, _⟩ => show win2_2.index t (1 : Fin 2) * 128 + 1 * k.val = k.val; rw [e21]; omega

/-- So is its bias, -/
theorem b_blk (c : Dev nD) (t : Fin cfg2.N) (k : Fin 128) :
    (iblk2 V c 3 t : Vec Ideal S128 .f32) (ix1 k) = (V c main_arg8 : Cert.Spec.Vec1 128) (ix1 k) := by
  obtain ⟨-, -, -, -, -, -, e30, -, -, -, -, -⟩ := idx_facts t
  show V c main_arg8 (((cfg2.win 3).blk t).view.emb (ix1 k)) = V c main_arg8 (ix1 k)
  refine congrArg (V c main_arg8) (funext fun a => Fin.ext ?_)
  match a with
  | ⟨0, _⟩ => show win2_3.index t (0 : Fin 1) * 128 + 1 * k.val = k.val; rw [e30]; omega

/-- the output layer's padded weights, -/
theorem wo_blk (c : Dev nD) (t : Fin cfg2.N) (k q : Fin 128) :
    (iblk2 V c 4 t : Vec Ideal S128x128 .f32) (ix2 k q) = (V c main_v25 : Cert.Spec.Mat 128 128) (ix2 k q) := by
  obtain ⟨-, -, -, -, -, -, -, e40, e41, -, -, -⟩ := idx_facts t
  show V c main_v25 (((cfg2.win 4).blk t).view.emb (ix2 k q)) = V c main_v25 (ix2 k q)
  refine congrArg (V c main_v25) (funext fun a => Fin.ext ?_)
  match a with
  | ⟨0, _⟩ => show win2_4.index t (0 : Fin 2) * 128 + 1 * k.val = k.val; rw [e40]; omega
  | ⟨1, _⟩ => show win2_4.index t (1 : Fin 2) * 128 + 1 * q.val = q.val; rw [e41]; omega

/-- and its padded bias. -/
theorem bo_blk (c : Dev nD) (t : Fin cfg2.N) (q : Fin 128) :
    (iblk2 V c 5 t : Vec Ideal S128 .f32) (ix1 q) = (V c main_v26 : Cert.Spec.Vec1 128) (ix1 q) := by
  obtain ⟨-, -, -, -, -, -, -, -, -, e50, -, -⟩ := idx_facts t
  show V c main_v26 (((cfg2.win 5).blk t).view.emb (ix1 q)) = V c main_v26 (ix1 q)
  refine congrArg (V c main_v26) (funext fun a => Fin.ext ?_)
  match a with
  | ⟨0, _⟩ => show win2_5.index t (0 : Fin 1) * 128 + 1 * q.val = q.val; rw [e50]; omega

/-- What point t writes back is block t (node rows 5000·t … 5000·t + 4999) of the last layer of the six arrays. -/
theorem flushed_eq (c : Dev nD) (t : Fin cfg2.N) :
    (dat2 (F := Ideal) V c).flushed 6 t = ((cfg2.win 6).blk t).view.read (Elt Ideal)
      (Cert.Spec.gcnFinal (n := 128) (V c main_v24) (Cert.Spec.col0 (V c main_v7)) (V c main_arg7) (V c main_arg8)
          (V c main_v25) (V c main_v26)) := by
  show (cfg2.win 6).cut (grid2.coords t) ((dat2 V c).after 6 t) = _
  rw [after2_6]
  unfold out2_6
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, e60, e61⟩ := idx_facts t
  have hN : cfg2.N = 20 := N_2
  have ht : t.val < 20 := by have := t.isLt; omega
  funext j
  obtain ⟨p, q, rfl⟩ : ∃ (p : Fin 5000) (q : Fin 128), j = ix2 p q := ⟨j 0, j 1, eq_ix2 j⟩
  have hp : p.val < 5000 := p.isLt
  have hr : ((cfg2.win 6).blk t).view.emb (ix2 p q) = ix2 (⟨t.val * 5000 + p.val, by omega⟩ : Fin 100000) q := by
    funext a; apply Fin.ext
    match a with
    | ⟨0, _⟩ => show win2_6.index t (0 : Fin 2) * 5000 + 1 * p.val = t.val * 5000 + p.val; rw [e60]; omega
    | ⟨1, _⟩ => show win2_6.index t (1 : Fin 2) * 128 + 1 * q.val = q.val; rw [e61]; omega
  show k2_pay1 (F := Ideal) (iblk2 V c 0 t) (iblk2 V c 1 t) (iblk2 V c 2 t) (iblk2 V c 3 t) (iblk2 V c 4 t) (iblk2 V c 5 t) (ix2 p q)
    = Cert.Spec.gcnFinal (n := 128) (V c main_v24) (Cert.Spec.col0 (V c main_v7)) (V c main_arg7) (V c main_arg8)
          (V c main_v25) (V c main_v26) (((cfg2.win 6).blk t).view.emb (ix2 p q))
  rw [hr]
  exact pay_eq_spec (V c main_v24) (V c main_v7) (V c main_arg7) (V c main_arg8) (V c main_v25) (V c main_v26)
    (iblk2 V c 0 t) (iblk2 V c 1 t) (iblk2 V c 2 t) (iblk2 V c 3 t) (iblk2 V c 4 t) (iblk2 V c 5 t)
    (⟨t.val * 5000 + p.val, by omega⟩ : Fin 100000) p q
    (fun l => agg_blk V c t p l _ rfl) (nrm_blk V c t p _ rfl) (fun l k => w_blk V c t l k) (fun k => b_blk V c t k)
    (fun k => wo_blk V c t k q) (bo_blk V c t q)

/-- An index of the output array lies in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v27).slice (win2_6.rect t)).set ↔ _
  rw [View.set_slice_whole, Rect.mem_set_unit]
  exact Iff.rfl

/-- Node row r lies in the block of point r / 5000, and the grid has twenty points: the blocks fill the array. -/
theorem cover (i : S100000x128.Idx) :
    ∃ t : Fin cfg2.N, (cfg2.win 6).flush t = true ∧ i ∈ ((cfg2.win 6).blk t).view.set := by
  have hN : cfg2.N = 20 := N_2
  have hi0 : (i 0).val < 100000 := (i 0).isLt
  have hi1 : (i 1).val < 128 := (i 1).isLt
  refine ⟨⟨(i 0).val / 5000, by omega⟩, flush2_6 _, ?_⟩
  rw [mem_blk]
  obtain ⟨-, -, -, -, -, -, -, -, -, -, e60, e61⟩ := idx_facts ⟨(i 0).val / 5000, by omega⟩
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, _⟩ (1 : Fin 2) * 128 ≤ (i 1).val ∧ (i 1).val < win2_6.index ⟨(i 0).val / 5000, _⟩ (1 : Fin 2) * 128 + 128
    rw [e61]
    omega

/-- Whatever the buffers hold when the region is entered, its output array ends at the last layer, through
    a 128-column output layer, of the six arrays it reads. -/
theorem region2_value (c : Dev nD) :
    (dat2 (F := Ideal) V c).arrAt 6 cfg2.N
      = Cert.Spec.gcnFinal (n := 128) (V c main_v24) (Cert.Spec.col0 (V c main_v7)) (V c main_arg7) (V c main_arg8)
          (V c main_v25) (V c main_v26) :=
  (dat2 (F := Ideal) V c).arrAt_eq_of_cover 6
    (Cert.Spec.gcnFinal (n := 128) (V c main_v24) (Cert.Spec.col0 (V c main_v7)) (V c main_arg7) (V c main_arg8)
          (V c main_v25) (V c main_v26))
    (fun t _ => flushed_eq V c t) cover

end Cert.KernelIdeal.Region2Value

end
-- ==== Proof.KHostD.lean ====
/-
  From region 2's entry to the result: region 2 leaves the last layer through the padded 128-column
  output layer; the result keeps its first 64 columns, where the padded weights and bias are the
  arguments', so it is the last layer through the 64-column output layer.
-/
import proofs.«409191_j30193620090945_3_alg».proof.Proof.KHostDefs
import proofs.«409191_j30193620090945_3_alg».proof.Proof.Region2
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx Idealize.SL.Sem

/-- The first 64 columns of the last layer through a 128-column output layer whose first 64 columns
    (weights and bias) are those of a 64-column output layer: column j of the result is
    Σ_k y[r,k]·wo'[k,j] + bo'[j] with j < 64, and there wo'[k,j] = wo[k,j], bo'[j] = bo[j]. -/
theorem slice_gcnFinal (agg : Cert.Spec.Mat 100000 128) (nrm : Cert.Spec.Vec1 100000)
    (w : Cert.Spec.Mat 128 128) (b : Cert.Spec.Vec1 128)
    (wo' : Cert.Spec.Mat 128 128) (bo' : Cert.Spec.Vec1 128) (wo : Cert.Spec.Mat 128 64) (bo : Cert.Spec.Vec1 64)
    (hw : ∀ (k : Fin 128) (j : Fin 64), wo' (ix2 k (⟨j.val, by omega⟩ : Fin 128)) = wo (ix2 k j))
    (hb : ∀ j : Fin 64, bo' (ix1 (⟨j.val, by omega⟩ : Fin 128)) = bo (ix1 j))
    (hs : (⟨2, ![100000, 128]⟩ : Shape).Slices ![0, 0] ⟨2, ![100000, 64]⟩) :
    extractStridedSlice ⟨2, ![100000, 64]⟩ ![0, 0] (Cert.Spec.gcnFinal (n := 128) agg nrm w b wo' bo') hs
      = Cert.Spec.gcnFinal (n := 64) agg nrm w b wo bo := by
  funext i
  obtain ⟨r, j, rfl⟩ : ∃ (r : Fin 100000) (j : Fin 64), i = ix2 r j := ⟨i 0, i 1, eq_ix2 i⟩
  refine (slice2_axis1_apply 0 _ hs r j (⟨j.val, by omega⟩ : Fin 128) (Nat.zero_add _).symm).trans ?_
  show (∑ k : Fin 128, Cert.Spec.affineRelu agg nrm w b (ix2 r k) * wo' (ix2 k (⟨j.val, by omega⟩ : Fin 128)))
        + bo' (ix1 (⟨j.val, by omega⟩ : Fin 128))
      = (∑ k : Fin 128, Cert.Spec.affineRelu agg nrm w b (ix2 r k) * wo (ix2 k j)) + bo (ix1 j)
  rw [hb j]
  exact congrArg (· + bo (ix1 j)) (Finset.sum_congr rfl fun k _ => by rw [hw k j])

variable (m : (ℓ : Loc nD τ sig) → Buf (Elt Ideal) ℓ) (ρ : Dev nD → PrngReg)

/-- The result array, from what region 2 found. -/
theorem result_of_at13 (c : Dev nD) (agg : Cert.Spec.Mat 100000 128) (h13 : At13 m ρ c agg) :
    W15 m ρ c (Proc.devRef .tc main_v28)
      = Cert.Spec.gcnFinal (n := 64) agg (nrmK (m ((c : Thread nD τ).loc main_arg2))) (m ((c : Thread nD τ).loc main_arg7)) (m ((c : Thread nD τ).loc main_arg8)) (m ((c : Thread nD τ).loc main_arg9)) (m ((c : Thread nD τ).loc main_arg10)) := by
  -- the result buffer is the slice of region 2's output array
  have e28 : W15 m ρ c (Proc.devRef .tc main_v28)
      = extractStridedSlice S100000x64 ![0, 0] (W14 m ρ c (Proc.devRef .tc main_v27) : S100000x128.Idx → EReal)
          Facts₀.slices_S100000x128_S100000x64_0_0 := by
    show StableHlo.after hostOps3 (W14 m ρ c) (Proc.devRef .tc main_v28) = _
    after_results
  -- the norm column's one column is the norm
  have hcol : Cert.Spec.col0 (nrmCol (m ((c : Thread nD τ).loc main_arg2))) = nrmK (m ((c : Thread nD τ).loc main_arg2)) := by
    funext i
    rw [eq_ix1 i]
    rfl
  -- region 2's output array is the last layer through the padded output layer
  have e27 : W14 m ρ c (Proc.devRef .tc main_v27)
      = Cert.Spec.gcnFinal (n := 128) agg (nrmK (m ((c : Thread nD τ).loc main_arg2)))
          (m ((c : Thread nD τ).loc main_arg7)) (m ((c : Thread nD τ).loc main_arg8))
          (W13 m ρ c (Proc.devRef .tc main_v25)) (W13 m ρ c (Proc.devRef .tc main_v26)) := by
    have h := Cert.KernelIdeal.Region2Value.region2_value (V13 m ρ) c
    rw [show V13 m ρ c main_v24 = agg from h13.v24,
        show V13 m ρ c main_v7 = nrmCol (m ((c : Thread nD τ).loc main_arg2)) from h13.v7,
        show V13 m ρ c main_arg7 = m ((c : Thread nD τ).loc main_arg7) from h13.a7,
        show V13 m ρ c main_arg8 = m ((c : Thread nD τ).loc main_arg8) from h13.a8, hcol] at h
    exact (W14_arr m ρ c 6).trans h
  rw [e28, e27]
  exact slice_gcnFinal agg _ _ _ _ _ _ _ h13.v25 h13.v26 _

end Cert.KernelIdeal.HostValue

end
-- ==== Proof.KHost.lean ====
/-
  The kernel program's result array is the network of the launch contents: the three boundary summaries
  chained from the launch to the return.
-/
import proofs.«409191_j30193620090945_3_alg».proof.Proof.KHostDefs
import proofs.«409191_j30193620090945_3_alg».proof.Proof.KHostA
import proofs.«409191_j30193620090945_3_alg».proof.Proof.KHostB
import proofs.«409191_j30193620090945_3_alg».proof.Proof.KHostC
import proofs.«409191_j30193620090945_3_alg».proof.Proof.KHostD

set_option maxRecDepth 16384

noncomputable section

open scoped BigOperators

namespace Cert.KernelIdeal.HostValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result buffer at the last boundary is the network of the arguments. -/
theorem result_value (c : Dev nD) (s : Fin 800000 → Fin 100000) (hs : SrcIs m c s) :
    W15 m ρ c (Proc.devRef .tc main_v28)
      = Cert.Spec.net (nrmK (m ((c : Thread nD τ).loc main_arg2))) (scK (m ((c : Thread nD τ).loc main_arg2))) s (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h4 := at4 m ρ c s hs
  have h8 := at8_of_at4 m ρ c s hs h4
  have h13 := at13_of_at8 m ρ c s hs _ h8
  exact result_of_at13 m ρ c _ h13

end Cert.KernelIdeal.HostValue

end
-- ==== Proof.RefSpec.lean ====
/-
  The reference program's result is the same network of its arguments: its stages, read one operation at a
  time, are the input layer, then twice "scale by the norm, take rows at the source ids, sum into
  destination rows, scale by the norm, dense layer, bias, rectifier" (with the residual the first time),
  then the output layer. With every source id a node id, taking rows of the scaled array at the ids is
  the message array.
-/
import proofs.«409191_j30193620090945_3_alg».proof.Proof.Gen.ReferenceIdeal.Read
import proofs.«409191_j30193620090945_3_alg».proof.Proof.Spec
import proofs.«409191_j30193620090945_3_alg».proof.Proof.LibGather
import Idealize.ShloMosaic.Lib.ValueIdx
import Idealize.ShloMosaic.Lib.StableHlo.Predicate
import Idealize.ShloMosaic.PureOps.Ideal.Laws

set_option maxRecDepth 16384

noncomputable section

open scoped BigOperators

namespace Cert.ReferenceIdeal.RefValue

section Pieces
open Cert.ReferenceIdeal Cert.ReferenceIdeal.Facts₀ Idealize.ShloMosaic

/-- The sum of the edges' messages into their destination nodes' rows, from zero. -/
def scR (dst : IVec S800000 32) (u : FVec Ideal S800000x128 .f32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst) u
end Pieces

open Cert.ReferenceIdeal Cert.ReferenceIdeal.Read Idealize.ShloMosaic Idealize.ShloMosaic.ValueIdx

/-- The first stage: every node row through the input layer. -/
theorem input_stage (x0 : FVec Ideal S100000x256 .f32) (x3 : FVec Ideal S256x128 .f32) (x4 : FVec Ideal S128 .f32) :
    val_main_v10 (F := Ideal) x0 x3 x4 = Cert.Spec.inputLayer x0 x3 x4 := by
  funext i
  obtain ⟨p, q, rfl⟩ : ∃ (p : Fin 100000) (q : Fin 128), i = ix2 p q := ⟨i 0, i 1, eq_ix2 i⟩
  have el : ∀ k : Fin 256, lidx_main_v7 (ix2 p q) k = ix2 p k := fun k =>
    funext fun a => Fin.ext (by match a with | ⟨0, _⟩ => rfl | ⟨1, _⟩ => rfl)
  have er : ∀ k : Fin 256, ridx_main_v7 (ix2 p q) k = ix2 k q := fun k =>
    funext fun a => Fin.ext (by match a with | ⟨0, _⟩ => rfl | ⟨1, _⟩ => rfl)
  have eb : idx_main_v8 (idx_main_v9 (ix2 p q)) = ix1 q :=
    funext fun a => Fin.ext (by match a with | ⟨0, _⟩ => rfl)
  rw [val_main_v10_apply, val_main_v7_apply, val_main_v9_apply, val_main_v8_apply]
  simp only [el, er, eb, Ideal.addf_def]
  rfl

/-- A word read as a non-negative integer is not below zero. -/
theorem slt_zero_of_nonneg (a : BitVec 32) (h : 0 ≤ a.toInt) : IntOp.cmpi .slt a 0#32 = 0#1 := by
  have hb : a.slt 0#32 = false := by
    simp only [BitVec.slt, BitVec.toInt_zero]
    exact decide_eq_false (by omega)
  show BitVec.ofBool (a.slt 0#32) = 0#1
  rw [hb]
  rfl

/-- Taking whole rows at start indices that are node ids: row e of the result is row s e of the operand. -/
theorem rows_at_ids (x : FVec Ideal S100000x128 .f32) (idx : IVec S800000x1 32) (s : Fin 800000 → Fin 100000)
    (hidx : ∀ e : Fin 800000, (idx (ix2 e (0 : Fin 1))).toInt = ((s e).val : Int)) (y : S800000x128.Idx) :
    Host.gather gather_S100000x128_S800000x1_S800000x128_1_0_n_n_0_1_1128 x idx y = x (ix2 (s (y 0)) (y 1)) := by
  show Host.gather (Cert.LibGather.rowsDims 100000 800000 128 _) x idx y = _
  refine (Cert.LibGather.gather_rows_apply (N := 100000) (E := 800000) (C := 128) (by decide) _ x idx y).trans ?_
  have hr : (⟨min (idx (ix2 (y 0) (0 : Fin 1))).toInt.toNat (100000 - 1), by omega⟩ : Fin 100000) = s (y 0) := by
    apply Fin.ext
    show min (idx (ix2 (y 0) (0 : Fin 1))).toInt.toNat (100000 - 1) = (s (y 0)).val
    rw [hidx (y 0), Int.toNat_natCast]
    exact Nat.min_eq_left (by have := (s (y 0)).isLt; omega)
  rw [hr]

/-- The first wrapped id column holds the source ids themselves, every one being a node id. -/
theorem wrapped_ids₁ (x1 : IVec S800000 32) (s : Fin 800000 → Fin 100000)
    (hs : ∀ e : Fin 800000, (x1 (ix1 e)).toInt = ((s e).val : Int)) (e : Fin 800000) :
    (val_main_v19 (F := Ideal) x1 (ix2 e (0 : Fin 1))).toInt = ((s e).val : Int) := by
  have ei : idx_main_v19 (ix2 e (0 : Fin 1)) = ix1 e :=
    funext fun a => Fin.ext (by match a with | ⟨0, _⟩ => rfl)
  rw [val_main_v19_apply, ei, val_main_v18_apply, val_main_v15_apply, val_main_v14_apply, val_main_c_apply,
    slt_zero_of_nonneg _ (by rw [hs e]; omega), select_zero]
  exact hs e

/-- The first message array: the scaled input-layer rows taken at the source ids. -/
theorem msg_stage₁ (x0 : FVec Ideal S100000x256 .f32) (x1 x2 : IVec S800000 32) (x3 : FVec Ideal S256x128 .f32)
    (x4 : FVec Ideal S128 .f32) (s : Fin 800000 → Fin 100000)
    (hs : ∀ e : Fin 800000, (x1 (ix1 e)).toInt = ((s e).val : Int)) :
    val_main_v20 (F := Ideal) x0 x1 x2 x3 x4
      = Cert.Spec.msg (val_main_v10 (F := Ideal) x0 x3 x4) (val_main_v6 (F := Ideal) x2) s := by
  funext y
  have en : idx_main_v11 (idx_main_v12 (ix2 (s (y 0)) (y 1))) = ix1 (s (y 0)) :=
    funext fun a => Fin.ext (by match a with | ⟨0, _⟩ => rfl)
  unfold val_main_v20
  rw [rows_at_ids _ _ s (wrapped_ids₁ x1 s hs) y, val_main_v13_apply, val_main_v12_apply, val_main_v11_apply, en]
  rfl

/-- The first dense stage: the aggregate scaled by the norm, through the dense layer and the rectifier,
    added to the input layer's rows. -/
theorem post_stage (x0 : FVec Ideal S100000x256 .f32) (x1 x2 : IVec S800000 32) (x3 : FVec Ideal S256x128 .f32)
    (x4 : FVec Ideal S128 .f32) (x5 : FVec Ideal S128x128 .f32) (x6 : FVec Ideal S128 .f32) :
    val_main_v32 (F := Ideal) x0 x1 x2 x3 x4 x5 x6
      = Cert.Spec.gcnPost (val_main_v23 (F := Ideal) x0 x1 x2 x3 x4) (val_main_v6 (F := Ideal) x2) x5 x6
          (val_main_v10 (F := Ideal) x0 x3 x4) := by
  funext i
  obtain ⟨p, q, rfl⟩ : ∃ (p : Fin 100000) (q : Fin 128), i = ix2 p q := ⟨i 0, i 1, eq_ix2 i⟩
  have el : ∀ k : Fin 128, lidx_main_v27 (ix2 p q) k = ix2 p k := fun k =>
    funext fun a => Fin.ext (by match a with | ⟨0, _⟩ => rfl | ⟨1, _⟩ => rfl)
  have er : ∀ k : Fin 128, ridx_main_v27 (ix2 p q) k = ix2 k q := fun k =>
    funext fun a => Fin.ext (by match a with | ⟨0, _⟩ => rfl | ⟨1, _⟩ => rfl)
  have en : ∀ k : Fin 128, idx_main_v24 (idx_main_v25 (ix2 p k)) = ix1 p := fun k =>
    funext fun a => Fin.ext (by match a with | ⟨0, _⟩ => rfl)
  have eb : idx_main_v28 (idx_main_v29 (ix2 p q)) = ix1 q :=
    funext fun a => Fin.ext (by match a with | ⟨0, _⟩ => rfl)
  have hsc : ∀ k : Fin 128, val_main_v26 (F := Ideal) x0 x1 x2 x3 x4 (ix2 p k)
      = val_main_v23 (F := Ideal) x0 x1 x2 x3 x4 (ix2 p k) * val_main_v6 (F := Ideal) x2 (ix1 p) := fun k => by
    rw [val_main_v26_apply, val_main_v25_apply, val_main_v24_apply, en k]; rfl
  rw [val_main_v32_apply, val_main_v31_apply, val_main_v30_apply, val_main_v27_apply, val_main_v29_apply,
    val_main_v28_apply, val_main_call1_v0_apply, val_main_call1_cst_apply]
  simp only [el, er, eb, hsc, Ideal.addf_def, Ideal.maximumf_def, Ideal.ofBits_def, Ideal.ofBits_zero_f32]
  rfl

/-- The second wrapped id column holds the source ids themselves as well. -/
theorem wrapped_ids₂ (x1 : IVec S800000 32) (s : Fin 800000 → Fin 100000)
    (hs : ∀ e : Fin 800000, (x1 (ix1 e)).toInt = ((s e).val : Int)) (e : Fin 800000) :
    (val_main_v41 (F := Ideal) x1 (ix2 e (0 : Fin 1))).toInt = ((s e).val : Int) := by
  have ei : idx_main_v41 (ix2 e (0 : Fin 1)) = ix1 e :=
    funext fun a => Fin.ext (by match a with | ⟨0, _⟩ => rfl)
  rw [val_main_v41_apply, ei, val_main_v40_apply, val_main_v37_apply, val_main_v36_apply, val_main_c_5_apply,
    slt_zero_of_nonneg _ (by rw [hs e]; omega), select_zero]
  exact hs e

/-- The second message array: the scaled rows of the first dense stage taken at the source ids. -/
theorem msg_stage₂ (x0 : FVec Ideal S100000x256 .f32) (x1 x2 : IVec S800000 32) (x3 : FVec Ideal S256x128 .f32)
    (x4 : FVec Ideal S128 .f32) (x5 : FVec Ideal S128x128 .f32) (x6 : FVec Ideal S128 .f32)
    (s : Fin 800000 → Fin 100000) (hs : ∀ e : Fin 800000, (x1 (ix1 e)).toInt = ((s e).val : Int)) :
    val_main_v42 (F := Ideal) x0 x1 x2 x3 x4 x5 x6
      = Cert.Spec.msg (val_main_v32 (F := Ideal) x0 x1 x2 x3 x4 x5 x6) (val_main_v6 (F := Ideal) x2) s := by
  funext y
  have en : idx_main_v33 (idx_main_v34 (ix2 (s (y 0)) (y 1))) = ix1 (s (y 0)) :=
    funext fun a => Fin.ext (by match a with | ⟨0, _⟩ => rfl)
  unfold val_main_v42
  rw [rows_at_ids _ _ s (wrapped_ids₂ x1 s hs) y, val_main_v35_apply, val_main_v34_apply, val_main_v33_apply, en]
  rfl

/-- The last stage: the second aggregate scaled by the norm, through the dense layer and the rectifier,
    then through the output layer. -/
theorem final_stage (x0 : FVec Ideal S100000x256 .f32) (x1 x2 : IVec S800000 32) (x3 : FVec Ideal S256x128 .f32)
    (x4 : FVec Ideal S128 .f32) (x5 : FVec Ideal S128x128 .f32) (x6 : FVec Ideal S128 .f32) (x7 : FVec Ideal S128x128 .f32)
    (x8 : FVec Ideal S128 .f32) (x9 : FVec Ideal S128x64 .f32) (x10 : FVec Ideal S64 .f32) :
    val_main_v57 (F := Ideal) x0 x1 x2 x3 x4 x5 x6 x7 x8 x9 x10
      = Cert.Spec.gcnFinal (val_main_v45 (F := Ideal) x0 x1 x2 x3 x4 x5 x6) (val_main_v6 (F := Ideal) x2) x7 x8 x9 x10 := by
  funext i
  obtain ⟨p, q, rfl⟩ : ∃ (p : Fin 100000) (q : Fin 64), i = ix2 p q := ⟨i 0, i 1, eq_ix2 i⟩
  have el : ∀ k : Fin 128, lidx_main_v54 (ix2 p q) k = ix2 p k := fun k =>
    funext fun a => Fin.ext (by match a with | ⟨0, _⟩ => rfl | ⟨1, _⟩ => rfl)
  have er : ∀ k : Fin 128, ridx_main_v54 (ix2 p q) k = ix2 k q := fun k =>
    funext fun a => Fin.ext (by match a with | ⟨0, _⟩ => rfl | ⟨1, _⟩ => rfl)
  have el' : ∀ k l : Fin 128, lidx_main_v49 (ix2 p k) l = ix2 p l := fun k l =>
    funext fun a => Fin.ext (by match a with | ⟨0, _⟩ => rfl | ⟨1, _⟩ => rfl)
  have er' : ∀ k l : Fin 128, ridx_main_v49 (ix2 p k) l = ix2 l k := fun k l =>
    funext fun a => Fin.ext (by match a with | ⟨0, _⟩ => rfl | ⟨1, _⟩ => rfl)
  have en : ∀ l : Fin 128, idx_main_v46 (idx_main_v47 (ix2 p l)) = ix1 p := fun l =>
    funext fun a => Fin.ext (by match a with | ⟨0, _⟩ => rfl)
  have eb : ∀ k : Fin 128, idx_main_v50 (idx_main_v51 (ix2 p k)) = ix1 k := fun k =>
    funext fun a => Fin.ext (by match a with | ⟨0, _⟩ => rfl)
  have eo : idx_main_v55 (idx_main_v56 (ix2 p q)) = ix1 q :=
    funext fun a => Fin.ext (by match a with | ⟨0, _⟩ => rfl)
  have hsc : ∀ l : Fin 128, val_main_v48 (F := Ideal) x0 x1 x2 x3 x4 x5 x6 (ix2 p l)
      = val_main_v45 (F := Ideal) x0 x1 x2 x3 x4 x5 x6 (ix2 p l) * val_main_v6 (F := Ideal) x2 (ix1 p) := fun l => by
    rw [val_main_v48_apply, val_main_v47_apply, val_main_v46_apply, en l]; rfl
  have hrelu : ∀ k : Fin 128, val_main_v53 (F := Ideal) x0 x1 x2 x3 x4 x5 x6 x7 x8 (ix2 p k)
      = max ((∑ l : Fin 128, (val_main_v45 (F := Ideal) x0 x1 x2 x3 x4 x5 x6 (ix2 p l)
          * val_main_v6 (F := Ideal) x2 (ix1 p)) * x7 (ix2 l k)) + x8 (ix1 k)) 0 := fun k => by
    rw [val_main_v53_apply, val_main_v52_apply, val_main_v49_apply, val_main_v51_apply, val_main_v50_apply,
      val_main_call2_v0_apply, val_main_call2_cst_apply]
    simp only [el', er', eb, hsc, Ideal.addf_def, Ideal.maximumf_def, Ideal.ofBits_def, Ideal.ofBits_zero_f32]
  rw [val_main_v57_apply, val_main_v54_apply, val_main_v56_apply, val_main_v55_apply]
  simp only [el, er, eo, hrelu, Ideal.addf_def]
  rfl

/-- The reference's last stage is the network of its arguments, when the source ids are node ids. -/
theorem ref_value (x0 : FVec Ideal S100000x256 .f32) (x1 x2 : IVec S800000 32) (x3 : FVec Ideal S256x128 .f32)
    (x4 : FVec Ideal S128 .f32) (x5 : FVec Ideal S128x128 .f32) (x6 : FVec Ideal S128 .f32) (x7 : FVec Ideal S128x128 .f32)
    (x8 : FVec Ideal S128 .f32) (x9 : FVec Ideal S128x64 .f32) (x10 : FVec Ideal S64 .f32)
    (s : Fin 800000 → Fin 100000) (hs : ∀ e : Fin 800000, (x1 (ix1 e)).toInt = ((s e).val : Int)) :
    val_main_v57 (F := Ideal) x0 x1 x2 x3 x4 x5 x6 x7 x8 x9 x10
      = Cert.Spec.net (val_main_v6 (F := Ideal) x2) (scR x2) s x0 x3 x4 x5 x6 x7 x8 x9 x10 := by
  have h45 : val_main_v45 (F := Ideal) x0 x1 x2 x3 x4 x5 x6
      = scR x2 (val_main_v42 (F := Ideal) x0 x1 x2 x3 x4 x5 x6) := rfl
  have h23 : val_main_v23 (F := Ideal) x0 x1 x2 x3 x4
      = scR x2 (val_main_v20 (F := Ideal) x0 x1 x2 x3 x4) := rfl
  unfold Cert.Spec.net
  rw [final_stage, h45, msg_stage₂ x0 x1 x2 x3 x4 x5 x6 s hs, post_stage, h23, msg_stage₁ x0 x1 x2 x3 x4 s hs,
    input_stage]

end Cert.ReferenceIdeal.RefValue

end
-- ==== Proof.SrcRange.lean ====
/-
  What the precondition says about the edge list: every source id is a node id, 0 ≤ src e < 100000.
  The precondition is a conjunction whose last conjunct is "all of (src ≥ 0 and src < 100000)"; only that
  conjunct is read here, and the source ids come out as a function into the node range.
-/
import proofs.«409191_j30193620090945_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.SrcRange

open Cert.Pre_finite_inputs Idealize.ShloMosaic Idealize.ShloMosaic.ValueIdx

/-- Under the precondition the source ids are node ids: there is `s : edge → node` with `src e = s e`
    as signed integers. -/
theorem src_in_range (x0 : FVec Ideal S100000x256 .f32) (x1 x2 : IVec S800000 32) (x3 : FVec Ideal S256x128 .f32)
    (x4 : FVec Ideal S128 .f32) (x5 : FVec Ideal S128x128 .f32) (x6 : FVec Ideal S128 .f32) (x7 : FVec Ideal S128x128 .f32)
    (x8 : FVec Ideal S128 .f32) (x9 : FVec Ideal S128x64 .f32) (x10 : FVec Ideal S64 .f32)
    (h : Cert.Pre_finite_inputs.fn (F := Ideal) x0 x1 x2 x3 x4 x5 x6 x7 x8 x9 x10 = fun _ => 1#1) :
    ∃ s : Fin 800000 → Fin 100000, ∀ e : Fin 800000, (x1 (ix1 e)).toInt = ((s e).val : Int) := by
  -- the scalar shape has exactly one index
  haveI : Subsingleton S_.Idx := ⟨fun a b => funext fun d => d.elim0⟩
  -- the precondition at its one index, with its chain of operations opened
  have h0 := congrFun h ix0
  dsimp only [fn, fn_part1, fn_part2] at h0
  -- the last conjunct alone: "all of (src ≥ 0 and src < 100000)", read back entry by entry
  have hlast := (IntOp.andi_eq_one.1 h0).2
  have hall := Host.reduce_andi_all _ _ _ _ _ hlast
  -- at each edge both comparisons hold, and a signed comparison is a comparison of the signed readings
  have key : ∀ e : Fin 800000, 0 ≤ (x1 (ix1 e)).toInt ∧ (x1 (ix1 e)).toInt < 100000 := by
    intro e
    obtain ⟨hge, hlt⟩ := IntOp.andi_eq_one.1 (hall (ix1 e))
    have hge' : IntOp.cmpi .sge (x1 (ix1 e)) (0#32) = 1#1 := hge
    have hlt' : IntOp.cmpi .slt (x1 (ix1 e)) (100000#32) = 1#1 := hlt
    have h1 := IntOp.cmpi_sge.1 hge'
    have h2 := IntOp.cmpi_slt.1 hlt'
    rw [show (0#32 : BitVec 32).toInt = 0 from by decide] at h1
    rw [StableHlo.Predicate.toInt_ofNat_small 100000 (by omega)] at h2
    exact ⟨by omega, by omega⟩
  -- the source ids as a function into the node range
  refine ⟨fun e => ⟨(x1 (ix1 e)).toInt.toNat, ?_⟩, fun e => ?_⟩
  · have := key e; omega
  · have := key e
    show (x1 (ix1 e)).toInt = (((x1 (ix1 e)).toInt.toNat : Nat) : Int)
    omega

end Cert.Pre_finite_inputs.SrcRange

end
-- ==== Proof.lean ====
/-
  Two programs for a two-layer graph convolution over 100000 nodes and 800000 edges — one running its
  dense stages as three tiled kernels among host gathers and segment sums, one written with whole-array
  operations — compute the same 100000×64 array over the extended reals whenever every source id of the
  edge list is a node id.

  Both are the network of `Spec.lean`: an input layer, then twice a round of message passing (each edge
  carries its source node's row scaled by that node's degree norm; rows are summed into destination
  nodes, scaled again, sent through a dense layer and a rectifier), with a residual after the first round
  and an output layer after the second. The kernel program scales after taking rows where the reference
  scales before — the same product at the same index; it runs the dense stages block by block — the
  same sums row by row; and it pads the output layer to 128 columns and keeps the first 64 — where the
  padding is never read. Its takes fill out-of-range rows with a marker the reference's clamped reads do
  not have, which is why the source ids must be in range; with them in range neither the fill nor the
  clamp is ever used. The degree norm and the segment sum are the same functions of the destination ids in
  both programs and are never opened. No law of arithmetic beyond reindexing a finite sum is used, so the
  finiteness of the float inputs is not.
-/
import proofs.«409191_j30193620090945_3_alg».proof.Defs
import proofs.«409191_j30193620090945_3_alg».proof.Proof.Gen.Kernel
import proofs.«409191_j30193620090945_3_alg».proof.Proof.Gen.Kernel.Skeleton
import proofs.«409191_j30193620090945_3_alg».proof.Proof.Gen.Kernel.Launch
import proofs.«409191_j30193620090945_3_alg».proof.Proof.Gen.Kernel.Points
import proofs.«409191_j30193620090945_3_alg».proof.Proof.Gen.Kernel.Frame
import proofs.«409191_j30193620090945_3_alg».proof.Proof.Gen.KernelIdeal
import proofs.«409191_j30193620090945_3_alg».proof.Proof.Gen.KernelIdeal.Skeleton
import proofs.«409191_j30193620090945_3_alg».proof.Proof.Gen.KernelIdeal.Launch
import proofs.«409191_j30193620090945_3_alg».proof.Proof.Gen.KernelIdeal.Points
import proofs.«409191_j30193620090945_3_alg».proof.Proof.Gen.KernelIdeal.Frame
import proofs.«409191_j30193620090945_3_alg».proof.Proof.Gen.ReferenceIdeal
import proofs.«409191_j30193620090945_3_alg».proof.Proof.Gen.ReferenceIdeal.Run
import proofs.«409191_j30193620090945_3_alg».proof.Proof.Gen.ReferenceIdeal.Read
import proofs.«409191_j30193620090945_3_alg».proof.Proof.Gen.Pre_finite_inputs
import proofs.«409191_j30193620090945_3_alg».proof.Proof.KRun
import proofs.«409191_j30193620090945_3_alg».proof.Proof.KHost
import proofs.«409191_j30193620090945_3_alg».proof.Proof.RefSpec
import proofs.«409191_j30193620090945_3_alg».proof.Proof.SrcRange
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The degree norm is one function of the destination ids in both programs. -/
theorem nrm_same (dst : IVec Cert.KernelIdeal.S800000 32) :
    Cert.ReferenceIdeal.Read.val_main_v6 (F := Ideal) dst = Cert.KernelIdeal.HostValue.nrmK dst := rfl

/-- The segment sum is one function of the destination ids and the message array in both programs. -/
theorem sc_same (dst : IVec Cert.KernelIdeal.S800000 32) :
    Cert.ReferenceIdeal.RefValue.scR dst = Cert.KernelIdeal.HostValue.scK dst := rfl

/-- From memories agreeing on the arguments both programs end with the network of the arguments in their
    result arrays: the kernel program's by the fold of its host stretches and regions, the reference's by
    its stages, the source ids in range by the precondition. -/
theorem algebraic : Cert.algebraic_KernelIdeal_ReferenceIdeal := by
  intro m ρ m' ρ' hpre hagree
  refine ⟨fun c => Cert.KernelIdeal.Gen.W15 m ρ c (Proc.devRef .tc Cert.KernelIdeal.main_v28),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W15 m ρ c (Proc.devRef .tc Cert.KernelIdeal.main_v28)
  obtain ⟨s, hs⟩ := Cert.Pre_finite_inputs.SrcRange.src_in_range _ _ _ _ _ _ _ _ _ _ _ (hpre c)
  obtain ⟨e0, e1, e2, e3, e4, e5, e6, e7, e8, e9, e10⟩ := hagree c
  rw [Cert.ReferenceIdeal.Read.val_main_v57_eq, e0, e1, e2, e3, e4, e5, e6, e7, e8, e9, e10,
    Cert.ReferenceIdeal.RefValue.ref_value _ _ _ _ _ _ _ _ _ _ _ s hs,
    Cert.KernelIdeal.HostValue.result_value m ρ c s hs, nrm_same, sc_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
